-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S8192x1 : Shape := ⟨2, ![8192, 1]⟩
abbrev S1x8192 : Shape := ⟨2, ![1, 8192]⟩
abbrev S512x128 : Shape := ⟨2, ![512, 128]⟩
abbrev S1024x128 : Shape := ⟨2, ![1024, 128]⟩
abbrev S512x1 : Shape := ⟨2, ![512, 1]⟩
abbrev S1x1024 : Shape := ⟨2, ![1, 1024]⟩
abbrev S512 : Shape := ⟨1, ![512]⟩
abbrev S1024 : Shape := ⟨1, ![1024]⟩
abbrev S1024x1 : Shape := ⟨2, ![1024, 1]⟩
abbrev S512x1024 : Shape := ⟨2, ![512, 1024]⟩
abbrev S_ : Shape := ⟨0, ![]⟩

abbrev nBuf : Space → Nat
  | .hbm => 9
  | .vmem => 12
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x1, .i32⟩
  | .hbm, ⟨3, _⟩ => ⟨S1x8192, .i32⟩
  | .hbm, ⟨4, _⟩ => ⟨S8192x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S512x128, .f32⟩
  | .local _ .vmem, ⟨1, _⟩ => ⟨S512x128, .f32⟩
  | .local _ .vmem, ⟨2, _⟩ => ⟨S1024x128, .f32⟩
  | .local _ .vmem, ⟨3, _⟩ => ⟨S1024x128, .f32⟩
  | .local _ .vmem, ⟨4, _⟩ => ⟨S512x1, .i32⟩
  | .local _ .vmem, ⟨5, _⟩ => ⟨S512x1, .i32⟩
  | .local _ .vmem, ⟨6, _⟩ => ⟨S1x1024, .i32⟩
  | .local _ .vmem, ⟨7, _⟩ => ⟨S1x1024, .i32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v65 : BitVec 1 := Scalar.cmpi .eq arg1 c7_i32
  let v66 : BitVec 32 := Scalar.extui v65
  let c0_i32_27 : BitVec 32 := 0#32
  let v67 : BitVec 1 := Scalar.cmpi .ne v66 c0_i32_27
  v67

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S8192_S8192x1 : S8192.ShapeCasts S8192x1
  shapeCasts_S8192_S1x8192 : S8192.ShapeCasts S1x8192
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x128_S512x128_0_0 : ∀ a, (![0, 0] : Fin 2 → Nat) a + S512x128.size a ≤ S512x128.size a
  h_S512x128 : 0 < S512x128.numel
  inb_S1024x128_S1024x128_0_0 : ∀ a, (![0, 0] : Fin 2 → Nat) a + S1024x128.size a ≤ S1024x128.size a
  h_S1024x128 : 0 < S1024x128.numel
  reduces_S512x128_S512 : S512x128.Reduces [1] S512
  shapeCasts_S512_S512x1 : S512.ShapeCasts S512x1
  reduces_S1024x128_S1024 : S1024x128.Reduces [1] S1024
  shapeCasts_S1024_S1024x1 : S1024.ShapeCasts S1024x1
  transposes_S1024x1_p1_0_S1x1024 : S1024x1.Transposes [1, 0] S1x1024
  bitsLt_bf16_f32 : FTy.bits .bf16 < FTy.bits .f32
  broadcasts_S512x1_S512x1024 : S512x1.Broadcasts S512x1024
  broadcasts_S1x1024_S512x1024 : S1x1024.Broadcasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  iota_S512x1_d0_w32 : S512x1.Iotas .tc 32 [0]
  iota_S1x1024_d1_w32 : S1x1024.Iotas .tc 32 [1]
  reduces_S512x1024_S512 : S512x1024.Reduces [1] S512
  reducesTo_S8192x1_S_d0_1 : S8192x1.ReducesTo [0, 1] S_
  h_S_ : 0 < S_.numel
  dot_S512x128_S1024x128_S512x1024_1_1_0_0_n_n_wf : DotDims.WF S512x128 S1024x128 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S8192x128.size a
  hwx0_0 : ∀ i : grid0.Coords, EltTy.bits .f32 = 32 ∨ (Rect.block (s := S8192x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .i32 = 32 ∨ (Rect.block (s := S8192x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .f32 = 32 ∨ (Rect.block (s := S8192x1) S512x1.size (cc0_transform_4 i) (hinb0_4 i)).WholeWords (EltTy.packing .f32)

variable [Facts₀]

def dot_S512x128_S1024x128_S512x1024_1_1_0_0_n_n : DotDims S512x128 S1024x128 S512x1024 where
  lhsContracting := [1]
  rhsContracting := [1]
  lhsNonContracting := [0]
  rhsNonContracting := [0]
  lhsBatch := []
  rhsBatch := []
  wf := dot_S512x128_S1024x128_S512x1024_1_1_0_0_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S128x8192 : Shape := ⟨2, ![128, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 57
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S128x8192, .f32⟩
  | .hbm, ⟨6, _⟩ => ⟨S8192x8192, .f32⟩
  | .hbm, ⟨7, _⟩ => ⟨S8192x1, .f32⟩
  | .hbm, ⟨8, _⟩ => ⟨S1x8192, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S8192x1, .i32⟩
  | .hbm, ⟨24, _⟩ => ⟨S1x8192, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S8192x8192, .i32⟩
  | .hbm, ⟨29, _⟩ => ⟨S8192x8192, .i32⟩
  | .hbm, ⟨30, _⟩ => ⟨S_, .i32⟩
  | .hbm, ⟨31, _⟩ => ⟨S8192x8192, .i32⟩
  | .hbm, ⟨32, _⟩ => ⟨S8192x8192, .i32⟩
  | .hbm, ⟨33, _⟩ => ⟨S8192x8192, .i1⟩
  | .hbm, ⟨34, _⟩ => ⟨S8192x8192, .i1⟩
  | .hbm, ⟨35, _⟩ => ⟨S8192x8192, .i1⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S_, .f32⟩
  | .hbm, ⟨42, _⟩ => ⟨S8192x8192, .f32⟩
  | .hbm, ⟨43, _⟩ => ⟨S8192x8192, .f32⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S_, .f32⟩
  | .hbm, ⟨51, _⟩ => ⟨S8192, .f32⟩
  | .hbm, ⟨52, _⟩ => ⟨S8192, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_cst_4 : Ref sig .tc := ⟨.hbm, 40, rfl⟩
abbrev main_call0_v0 : Ref sig .tc := ⟨.hbm, 41, rfl⟩
abbrev main_call0_v1 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_cst_9 : Ref sig .tc := ⟨.hbm, 55, rfl⟩
abbrev main_v40 : Ref sig .tc := ⟨.hbm, 56, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  transposes_S8192x128_S128x8192_1_0 : S8192x128.Transposes [1, 0] S128x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.Spec.lean ====
/-
  The batch-hard triplet loss over the extended reals, as ONE function of the two arguments: the embeddings
  `x` (8192 rows of 128 numbers) and the labels `l` (8192 words).

  For rows r, c:  sq r = Σ_k x(r,k)²,  gram r c = Σ_k x(r,k)·x(c,k),
                  dist r c = √(max (sq r + sq c − 2·gram r c) 0 + ε).
  The hardest positive of row r is the greatest `dist r c` over the columns c ≠ r carrying r's label (the other
  columns count 0), the hardest negative the least `dist r c` over the columns of another label (the others count
  +∞); the row's hinge is max (positive − negative + 1) 0 and the loss their mean. The maximum and the minimum
  are folds from the reduction's own neutral words, which are never evaluated.
-/
import Idealize.ShloMosaic.PureOps.Ideal
import Idealize.ShloMosaic.Lib.ValueIdx

noncomputable section

open scoped BigOperators

namespace Cert.Triplet

open Idealize.ShloMosaic Idealize.ShloMosaic.ValueIdx

/-- The embeddings' and the labels' shapes. -/
abbrev SX : Shape := ⟨2, ![8192, 128]⟩
abbrev SL : Shape := ⟨1, ![8192]⟩
abbrev Emb : Type := SX.Idx → EReal
abbrev Lab : Type := SL.Idx → BitVec 32

/-- The float words the two programs share, read at the extended reals (never evaluated). -/
def pinf : EReal := Ideal.ofBits .f32 0x7F800000#32
def ninf : EReal := Ideal.ofBits .f32 0xFF800000#32
def two : EReal := Ideal.ofBits .f32 0x40000000#32
def eps : EReal := Ideal.ofBits .f32 0x2B8CBCCC#32
def one : EReal := Ideal.ofBits .f32 0x3F800000#32
def n8192 : EReal := Ideal.ofBits .f32 0x46000000#32

/-- A row's squared norm, and two rows' inner product. -/
def sq (x : Emb) (r : Fin 8192) : EReal := ∑ k : Fin 128, x (ix2 r k) * x (ix2 r k)
def gram (x : Emb) (r c : Fin 8192) : EReal := ∑ k : Fin 128, x (ix2 r k) * x (ix2 c k)

/-- The distance of rows r and c through the Gram expansion, clamped at zero before the root. -/
def dist (x : Emb) (r c : Fin 8192) : EReal := Ideal.sqrt (max (sq x r + sq x c - two * gram x r c) 0 + eps)

/-- What column c contributes to row r's hardest positive and hardest negative. -/
def posv (x : Emb) (l : Lab) (r c : Fin 8192) : EReal := if l (ix1 r) = l (ix1 c) ∧ r ≠ c then dist x r c else 0
def negv (x : Emb) (l : Lab) (r c : Fin 8192) : EReal := if l (ix1 r) = l (ix1 c) then pinf else dist x r c

/-- The hardest positive and the hardest negative of row r. -/
def dpos (x : Emb) (l : Lab) (r : Fin 8192) : EReal := (Finset.univ : Finset (Fin 8192)).fold max ninf (posv x l r)
def dneg (x : Emb) (l : Lab) (r : Fin 8192) : EReal := (Finset.univ : Finset (Fin 8192)).fold min pinf (negv x l r)

/-- Row r's hinge, and the loss: the rows' mean. -/
def hinge (x : Emb) (l : Lab) (r : Fin 8192) : EReal := max (dpos x l r - dneg x l r + one) 0
def loss (x : Emb) (l : Lab) : EReal := Ideal.div (∑ r : Fin 8192, hinge x l r) n8192

end Cert.Triplet

end
-- ==== Proof.RefValue.lean ====
/-
  The reference program computes the specification's loss, stage by stage.

  At rows r, c: the row sums of squares are `sq`, the contraction with the transpose is `gram`, and the root of
  max (sq r + sq c − 2·gram r c) 0 + ε is `dist`. The word "same label" at (r, c) is 1 exactly when the two labels are
  equal, and the identity matrix's word is 1 exactly when r = c; on the diagonal the labels agree, so the exclusive or
  of the two words is 1 exactly when the labels agree and r ≠ c. Hence the distance times that word is `posv`, and the
  select on the negated "same label" word against +∞ is `negv`. The row maximum from −∞ and the row minimum from +∞
  are folds over the columns, `dpos` and `dneg`; the clamped difference plus one is `hinge`; the sum over all rows,
  divided by the word of 8192, is `loss`.
-/
import proofs.«102776_j52183852646786_1_alg».proof.Proof.Gen.ReferenceIdeal.Read
import proofs.«102776_j52183852646786_1_alg».proof.Proof.Spec
import Idealize.ShloMosaic.Lib.ValueIdx
import Idealize.ShloMosaic.PureOps.Ideal.Laws

noncomputable section

open scoped BigOperators

namespace Cert.Triplet.Ref

open Cert.ReferenceIdeal Cert.ReferenceIdeal.Read Idealize.ShloMosaic Idealize.ShloMosaic.ValueIdx

variable (x0 : (⟨Cert.ReferenceIdeal.S8192x128, .f32⟩ : BufTy).Contents (Elt Ideal))
  (x1 : (⟨Cert.ReferenceIdeal.S8192, .i32⟩ : BufTy).Contents (Elt Ideal))

/-- A row's squared norm: the sum of the squares from the zero word. -/
theorem sq_stage (r : Fin 8192) : val_main_v1 (F := Ideal) x0 (ix1 r) = sq x0 r := by
  rw [val_main_v1_apply]
  simp only [val_main_cst_apply, val_main_v0_apply, Ideal.ofBits_def, Ideal.mulf_def, Ideal.ofBits_zero_f32, zero_add]
  unfold sq
  refine Finset.sum_congr rfl fun k _ => ?_
  have e : idx_main_v1 (ix1 r) k = ix2 r k :=
    funext fun a => Fin.ext (by match a with | ⟨0, _⟩ => rfl | ⟨1, _⟩ => rfl)
  rw [e]

/-- Two rows' inner product: the contraction of the embeddings with their transpose. -/
theorem gram_stage (r c : Fin 8192) : val_main_v3 (F := Ideal) x0 (ix2 r c) = gram x0 r c := by
  rw [val_main_v3_apply]
  unfold gram
  refine Finset.sum_congr rfl fun k _ => ?_
  rw [val_main_v2_apply]
  have e1 : lidx_main_v3 (ix2 r c) k = ix2 r k :=
    funext fun a => Fin.ext (by match a with | ⟨0, _⟩ => rfl | ⟨1, _⟩ => rfl)
  have e2 : idx_main_v2 (ridx_main_v3 (ix2 r c) k) = ix2 c k :=
    funext fun a => Fin.ext (by match a with | ⟨0, _⟩ => rfl | ⟨1, _⟩ => rfl)
  rw [e1, e2]

/-- The distance of rows r and c: the root of the clamped Gram expansion plus ε. -/
theorem dist_stage (r c : Fin 8192) : val_main_v16 (F := Ideal) x0 (ix2 r c) = dist x0 r c := by
  have e1 : idx_main_v4 (idx_main_v6 (ix2 r c : S8192x8192.Idx)) = ix1 r :=
    funext fun a => Fin.ext (by match a with | ⟨0, _⟩ => rfl)
  have e2 : idx_main_v5 (idx_main_v7 (ix2 r c : S8192x8192.Idx)) = ix1 c :=
    funext fun a => Fin.ext (by match a with | ⟨0, _⟩ => rfl)
  rw [val_main_v16_apply, val_main_v15_apply, val_main_v13_apply, val_main_v14_apply, val_main_cst_2_apply,
    val_main_v11_apply, val_main_v12_apply, val_main_cst_1_apply, val_main_v8_apply, val_main_v10_apply,
    val_main_v6_apply, val_main_v7_apply, val_main_v4_apply, val_main_v5_apply, val_main_v9_apply,
    val_main_cst_0_apply, e1, e2, sq_stage, sq_stage, gram_stage]
  simp only [Ideal.hostUnary_sqrt_def, Ideal.addf_def, Ideal.subf_def, Ideal.mulf_def, Ideal.maximumf_def,
    Ideal.ofBits_def, Ideal.ofBits_zero_f32]
  rfl

/-- A comparison's word is 1 exactly when the two words are equal. -/
theorem cmpi_eq_one_iff {w : Nat} (a b : BitVec w) : IntOp.cmpi .eq a b = 1#1 ↔ a = b := by
  unfold IntOp.cmpi
  by_cases h : a = b
  · subst h; simp
  · have hb : (a == b) = false := beq_eq_false_iff_ne.mpr h
    simp only [hb, h, iff_false]
    decide

/-- The "same label" word at (r, c) compares row r's label with row c's. -/
theorem same_stage (r c : Fin 8192) :
    val_main_v21 (F := Ideal) x1 (ix2 r c) = IntOp.cmpi .eq (x1 (ix1 r)) (x1 (ix1 c)) := by
  have e1 : idx_main_v17 (idx_main_v19 (ix2 r c : S8192x8192.Idx)) = ix1 r :=
    funext fun a => Fin.ext (by match a with | ⟨0, _⟩ => rfl)
  have e2 : idx_main_v18 (idx_main_v20 (ix2 r c : S8192x8192.Idx)) = ix1 c :=
    funext fun a => Fin.ext (by match a with | ⟨0, _⟩ => rfl)
  rw [val_main_v21_apply, val_main_v19_apply, val_main_v20_apply, val_main_v17_apply, val_main_v18_apply, e1, e2]

/-- The identity matrix's word at (r, c) is 1 exactly on the diagonal. -/
theorem eye_stage (r c : Fin 8192) : val_main_v26 (F := Ideal) (ix2 r c) = 1#1 ↔ r = c := by
  rw [val_main_v26_apply, val_main_v25_apply, val_main_v22_apply, val_main_v23_apply, val_main_v24_apply,
    val_main_c_apply, cmpi_eq_one_iff]
  show IntOp.addi (BitVec.ofNat 32 r.val) 0#32 = BitVec.ofNat 32 c.val ↔ r = c
  unfold IntOp.addi
  rw [BitVec.add_zero]
  constructor
  · intro h
    have h' := congrArg BitVec.toNat h
    simp only [BitVec.toNat_ofNat] at h'
    have hr := r.isLt
    have hc := c.isLt
    exact Fin.ext (by omega)
  · intro h; rw [h]

/-- What column c contributes to row r's hardest positive: the distance times the mask "same label, off the diagonal". -/
theorem posv_stage (r c : Fin 8192) : val_main_v30 (F := Ideal) x0 x1 (ix2 r c) = posv x0 x1 r c := by
  rw [val_main_v30_apply, val_main_v29_apply, val_main_v27_apply, dist_stage, same_stage]
  unfold posv
  by_cases hrc : r = c
  · have he : val_main_v26 (F := Ideal) (ix2 r c) = 1#1 := (eye_stage r c).2 hrc
    have hs : IntOp.cmpi .eq (x1 (ix1 r)) (x1 (ix1 c)) = 1#1 := (cmpi_eq_one_iff _ _).2 (by rw [hrc])
    rw [he, hs, if_neg (fun h => h.2 hrc)]
    show dist x0 r c * (((IntOp.xori 1#1 1#1).toNat : ℝ) : EReal) = 0
    have hx : (IntOp.xori 1#1 1#1 : BitVec 1).toNat = 0 := by decide
    rw [hx, Nat.cast_zero, EReal.coe_zero, mul_zero]
  · have he : val_main_v26 (F := Ideal) (ix2 r c) = 0#1 :=
      eq_zero_of_ne_one (fun h => hrc ((eye_stage r c).1 h))
    rw [he]
    by_cases hl : x1 (ix1 r) = x1 (ix1 c)
    · rw [(cmpi_eq_one_iff _ _).2 hl, if_pos ⟨hl, hrc⟩]
      show dist x0 r c * (((IntOp.xori 1#1 0#1).toNat : ℝ) : EReal) = dist x0 r c
      have hx : (IntOp.xori 1#1 0#1 : BitVec 1).toNat = 1 := by decide
      rw [hx, Nat.cast_one, EReal.coe_one, mul_one]
    · rw [eq_zero_of_ne_one (fun h => hl ((cmpi_eq_one_iff _ _).1 h)), if_neg (fun h => hl h.1)]
      show dist x0 r c * (((IntOp.xori 0#1 0#1).toNat : ℝ) : EReal) = 0
      have hx : (IntOp.xori 0#1 0#1 : BitVec 1).toNat = 0 := by decide
      rw [hx, Nat.cast_zero, EReal.coe_zero, mul_zero]

/-- What column c contributes to row r's hardest negative: +∞ on r's own label, the distance elsewhere. -/
theorem negv_stage (r c : Fin 8192) : val_main_v32 (F := Ideal) x0 x1 (ix2 r c) = negv x0 x1 r c := by
  rw [val_main_v32_apply, val_main_v28_apply, val_main_call0_v1_apply, val_main_call0_v0_apply,
    val_main_cst_4_apply, dist_stage, same_stage]
  unfold negv
  by_cases hl : x1 (ix1 r) = x1 (ix1 c)
  · have h0 : ~~~(1#1 : BitVec 1) = 0#1 := by decide
    rw [(cmpi_eq_one_iff _ _).2 hl, if_pos hl, h0, select_zero]
    rfl
  · have h1 : ~~~(0#1 : BitVec 1) = 1#1 := by decide
    rw [eq_zero_of_ne_one (fun h => hl ((cmpi_eq_one_iff _ _).1 h)), if_neg hl, h1, select_one]

/-- Row r with column k put back on the reduced axis is the index (r, k). -/
theorem lift_row (h : S8192x8192.Reduces [1] S8192) (r : Fin 8192) (k : Fin (S8192x8192.size 1)) :
    h.lift (ix1 r) k = ix2 r (⟨k.val, k.isLt⟩ : Fin 8192) := by
  funext a
  apply Fin.ext
  match a with
  | ⟨0, _⟩ => rfl
  | ⟨1, _⟩ => rfl

/-- Row r's hardest positive: the row maximum, a fold of max from −∞ over the columns. -/
theorem dpos_stage (r : Fin 8192) : val_main_v31 (F := Ideal) x0 x1 (ix1 r) = dpos x0 x1 r := by
  have hR : S8192x8192.Reduces [1] S8192 := by decide
  unfold val_main_v31
  rw [Host.reduce_eq_fold_single FloatOps.maximumf _ _ _ hR _]
  have hf : (val_main_v30 (F := Ideal) x0 x1 ∘ hR.lift (ix1 r)) = posv x0 x1 r := funext fun k => by
    show val_main_v30 (F := Ideal) x0 x1 (hR.lift (ix1 r) k) = _
    rw [lift_row, posv_stage]
    rfl
  rw [hf]
  rfl

/-- Row r's hardest negative: the row minimum, a fold of min from +∞ over the columns. -/
theorem dneg_stage (r : Fin 8192) : val_main_v33 (F := Ideal) x0 x1 (ix1 r) = dneg x0 x1 r := by
  have hR : S8192x8192.Reduces [1] S8192 := by decide
  unfold val_main_v33
  rw [Host.reduce_eq_fold_single FloatOps.minimumf _ _ _ hR _]
  have hf : (val_main_v32 (F := Ideal) x0 x1 ∘ hR.lift (ix1 r)) = negv x0 x1 r := funext fun k => by
    show val_main_v32 (F := Ideal) x0 x1 (hR.lift (ix1 r) k) = _
    rw [lift_row, negv_stage]
    rfl
  rw [hf]
  rfl

/-- Row r's hinge. -/
theorem hinge_stage (r : Fin 8192) : val_main_v38 (F := Ideal) x0 x1 (ix1 r) = hinge x0 x1 r := by
  rw [val_main_v38_apply, val_main_v36_apply, val_main_v37_apply, val_main_cst_7_apply, val_main_v34_apply,
    val_main_v35_apply, val_main_cst_6_apply, dpos_stage, dneg_stage]
  simp only [Ideal.maximumf_def, Ideal.addf_def, Ideal.subf_def, Ideal.ofBits_def, Ideal.ofBits_zero_f32]
  rfl

/-- A rank-1 index of extent 8192 is its coordinate. -/
def rowEquiv : S8192.Idx ≃ Fin 8192 where
  toFun j := j 0
  invFun r := ix1 r
  left_inv j := (eq_ix1 j).symm
  right_inv _ := rfl

/-- The sum of the rows' hinges, from the zero word. -/
theorem sum_stage (i : S_.Idx) : val_main_v39 (F := Ideal) x0 x1 i = ∑ r : Fin 8192, hinge x0 x1 r := by
  rw [val_main_v39_apply, val_main_cst_8_apply]
  simp only [Ideal.ofBits_def, Ideal.ofBits_zero_f32, zero_add]
  refine Fintype.sum_equiv rowEquiv _ _ fun j => ?_
  obtain ⟨r, rfl⟩ : ∃ r : Fin 8192, j = ix1 r := ⟨j 0, eq_ix1 j⟩
  rw [hinge_stage]
  rfl

/-- The reference's result is the specification's loss: the hinges' sum over the word of 8192. -/
theorem result_eq : val_main_v40 (F := Ideal) x0 x1 = fun _ => loss x0 x1 := by
  funext i
  rw [val_main_v40_apply, sum_stage, val_main_cst_9_apply]
  rfl

end Cert.Triplet.Ref

end
-- ==== Proof.BodyBits.lean ====
/-
  The kernel body at a symbolic grid point. The grid is 16 row tiles by 8 column tiles; at point (i, j) the body
  reads a 512-row block and a 1024-row block of the embeddings and the two label blocks, forms the 512×1024 tile of
  distances and of label agreements, and folds the tile's row maxima (over positives) and row minima (over
  negatives) into two 512×1 running buffers, which it first resets when j = 0; when j = 7 it stores the hinge of
  the two running buffers into the output block. Three kinds of point — a row tile's first column tile, a middle
  one, its last — and one run of the body for each, from the four input blocks at given contents and the two
  running buffers at given contents (at anything, for a first step): what the running buffers and the output
  block hold afterwards, as the body's own arithmetic (`stepPos`, `stepNeg`, `hingeOf`) of what they held before.
-/
import proofs.«102776_j52183852646786_1_alg».proof.Proof.Gen.Kernel
import proofs.«102776_j52183852646786_1_alg».proof.Proof.Gen.Kernel.Skeleton
import proofs.«102776_j52183852646786_1_alg».proof.Proof.Gen.Kernel.Launch
import Idealize.ShloMosaic.Lib.Writes
import Idealize.ShloMosaic.Lib.Pipeline.FrameBody
import Idealize.ShloMosaic.Lib.Pipeline.Value
import Idealize.ShloMosaic.Lib.Tactic

noncomputable section

namespace Cert.Triplet.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra: the pipeline library's rounds copy beside the counters. -/
abbrev UC : Type := UR sig nD τ × Counters
local notation "𝕄" => MT nD τ sig Unit (Elt F) ℕ UC ℕ

/-- The running maximum's and the running minimum's buffers. -/
abbrev posM : Memref sig .tc .vmem S512x1 .f32 := Memref.whole cc0_scratch0
abbrev negM : Memref sig .tc .vmem S512x1 .f32 := Memref.whole cc0_scratch1

theorem hz2 : (![0, 0] : Fin 2 → Nat) = fun _ => 0 := by
  funext a; match a with | ⟨0, _⟩ => rfl | ⟨1, _⟩ => rfl

/-- "j = 0" as the body computes it, "j = 7" as the printed condition names it. -/
abbrev IsFirst (t : Fin cfg0.N) : Prop := Scalar.cmpi .ne (Scalar.extui (Scalar.cmpi .eq (BitVec.ofNat 32 ((grid0.coords t) 1).val) 0#32)) 0#32 = 1#1
abbrev IsLast (t : Fin cfg0.N) : Prop := k0_cond2 (grid0.coords t) = 1#1

/-- The column numbers of a tile's lanes: 0 … 1023. -/
abbrev lanes : IVec S1x1024 32 := iota .tc S1x1024 32 [1] iota_S1x1024_d1_w32

/-- One step of the running maximum over positives: the previous contents `a` against the row maxima of the tile
    (point `i`, embeddings blocks `x0` (rows) and `x1` (columns), label blocks `x2`, `x3`). -/
abbrev stepPos (i : grid0.Coords) (x0 : Vec F S512x128 .f32) (x1 : Vec F S1024x128 .f32) (x2 : Vec F S512x1 .i32) (x3 : Vec F S1x1024 .i32)
    (a : Vec F S512x1 .f32) : Vec F S512x1 .f32 :=
  k0_pay1 (k0_pay6 x0 x1) (k0_pay7 x2 x3) (k0_pay8 i) (Scalar.muli (BitVec.ofNat 32 (i 1).val) 1024#32) lanes a
/-- One step of the running minimum over negatives. -/
abbrev stepNeg (x0 : Vec F S512x128 .f32) (x1 : Vec F S1024x128 .f32) (x2 : Vec F S512x1 .i32) (x3 : Vec F S1x1024 .i32)
    (b : Vec F S512x1 .f32) : Vec F S512x1 .f32 :=
  k0_pay2 (k0_pay6 x0 x1) (k0_pay7 x2 x3) b
/-- The hinge of the two running buffers. -/
abbrev hingeOf (a b : Vec F S512x1 .f32) : Vec F S512x1 .f32 := k0_pay3 a b

section Runs

variable (c : Dev nD) (t : Fin cfg0.N)
  (M0 : Memref sig .tc .vmem S512x128 .f32) (h0 : M0.IsWhole) (M1 : Memref sig .tc .vmem S1024x128 .f32) (h1 : M1.IsWhole)
  (M2 : Memref sig .tc .vmem S512x1 .i32) (h2 : M2.IsWhole) (M3 : Memref sig .tc .vmem S1x1024 .i32) (h3 : M3.IsWhole)
  (M4 : Memref sig .tc .vmem S512x1 .f32) (h4 : M4.IsWhole)
  (x0 : Vec F S512x128 .f32) (x1 : Vec F S1024x128 .f32) (x2 : Vec F S512x1 .i32) (x3 : Vec F S1x1024 .i32) (a b : Vec F S512x1 .f32)

local notation "BODY" => cc0__triplet_kernel (grid0.coords t) M0 h0 M1 h1 M2 h2 M3 h3 M4 h4 (Memref.whole cc0_scratch0) (Memref.isWhole_whole _) (Memref.whole cc0_scratch1) (Memref.isWhole_whole _)
local notation "INS" => iprop(owns (c : Thread nD τ) M0 fullShare x0 ∗ owns (c : Thread nD τ) M1 fullShare x1 ∗ owns (c : Thread nD τ) M2 fullShare x2 ∗ owns (c : Thread nD τ) M3 fullShare x3)

/-- A first step (j = 0): the running buffers, whatever they held, end at one step from the reset values; the
    output block is untouched. -/
theorem run_first (hF : IsFirst t) (hL : ¬ IsLast t) (O : sProp 𝕄) (Q : PUnit → sProp 𝕄) :
    iprop(INS ∗ O ∗ (∃ a, owns (c : Thread nD τ) posM fullShare a) ∗ (∃ b, owns (c : Thread nD τ) negM fullShare b)
      ∗ (iprop(INS ∗ O ∗ owns (c : Thread nD τ) posM fullShare (stepPos (grid0.coords t) x0 x1 x2 x3 k0_pay4)
            ∗ owns (c : Thread nD τ) negM fullShare (stepNeg x0 x1 x2 x3 k0_pay5)) -∗ Q ⟨⟩))
      ⊢ wp frame (wpE (defs₀ (F := F)) Variants.none c none) Set.univ BODY Q := by
  unfold owns
  iintro ⟨⟨⟨%f0, %hf0, H0⟩, ⟨%f1, %hf1, H1⟩, ⟨%f2, %hf2, H2⟩, ⟨%f3, %hf3, H3⟩⟩, HO, ⟨%a', %fa, %hfa, Ha⟩, ⟨%b', %fb, %hfb, Hb⟩, Hk⟩
  subst hf0 hf1 hf2 hf3
  sl_exec! (disch := assumption)
  sl_step
  iapply Hk
  isplitl [H0 H1 H2 H3]
  · isplitl [H0]; · iexists f0; isplitr; (· ipureintro; rfl); iexact H0
    isplitl [H1]; · iexists f1; isplitr; (· ipureintro; rfl); iexact H1
    isplitl [H2]; · iexists f2; isplitr; (· ipureintro; rfl); iexact H2
    iexists f3; isplitr; (· ipureintro; rfl); iexact H3
  isplitl [HO]; · iexact HO
  isplitl [Ha]
  · iexists _; isplitr; swap; (· iexact Ha); ipureintro
    sl_unfold_words
    rw [View.read_writes_junk_eq_canon, View.canon_cons_unit_zero hz2]
    simp only [View.readAt_eq_ld, View.ld_unit_zero (S := S512x128) hz2, View.ld_unit_zero (S := S1024x128) hz2,
      View.ld_unit_zero (S := S512x1) hz2, View.ld_unit_zero (S := S1x1024) hz2, View.readCov_unit_zero (S := S512x1) _ hz2]
  · iexists _; isplitr; swap; (· iexact Hb); ipureintro
    sl_unfold_words
    rw [View.read_writes_junk_eq_canon, View.canon_cons_unit_zero hz2]
    simp only [View.readAt_eq_ld, View.ld_unit_zero (S := S512x128) hz2, View.ld_unit_zero (S := S1024x128) hz2,
      View.ld_unit_zero (S := S512x1) hz2, View.ld_unit_zero (S := S1x1024) hz2, View.readCov_unit_zero (S := S512x1) _ hz2]

/-- A middle step: the running buffers at `a`, `b` end one step further; the output block is untouched. -/
theorem run_mid (hF : ¬ IsFirst t) (hL : ¬ IsLast t) (O : sProp 𝕄) (Q : PUnit → sProp 𝕄) :
    iprop(INS ∗ O ∗ owns (c : Thread nD τ) posM fullShare a ∗ owns (c : Thread nD τ) negM fullShare b
      ∗ (iprop(INS ∗ O ∗ owns (c : Thread nD τ) posM fullShare (stepPos (grid0.coords t) x0 x1 x2 x3 a)
            ∗ owns (c : Thread nD τ) negM fullShare (stepNeg x0 x1 x2 x3 b)) -∗ Q ⟨⟩))
      ⊢ wp frame (wpE (defs₀ (F := F)) Variants.none c none) Set.univ BODY Q := by
  unfold owns
  iintro ⟨⟨⟨%f0, %hf0, H0⟩, ⟨%f1, %hf1, H1⟩, ⟨%f2, %hf2, H2⟩, ⟨%f3, %hf3, H3⟩⟩, HO, ⟨%fa, %hfa, Ha⟩, ⟨%fb, %hfb, Hb⟩, Hk⟩
  subst hf0 hf1 hf2 hf3 hfa hfb
  sl_exec! (disch := assumption)
  sl_step
  iapply Hk
  isplitl [H0 H1 H2 H3]
  · isplitl [H0]; · iexists f0; isplitr; (· ipureintro; rfl); iexact H0
    isplitl [H1]; · iexists f1; isplitr; (· ipureintro; rfl); iexact H1
    isplitl [H2]; · iexists f2; isplitr; (· ipureintro; rfl); iexact H2
    iexists f3; isplitr; (· ipureintro; rfl); iexact H3
  isplitl [HO]; · iexact HO
  isplitl [Ha]
  · iexists _; isplitr; swap; (· iexact Ha); ipureintro
    sl_unfold_words
    rw [View.read_writes_junk_eq_canon, View.canon_unit_zero hz2]
    simp only [View.readAt_eq_ld, View.ld_unit_zero (S := S512x128) hz2, View.ld_unit_zero (S := S1024x128) hz2,
      View.ld_unit_zero (S := S512x1) hz2, View.ld_unit_zero (S := S1x1024) hz2]
  · iexists _; isplitr; swap; (· iexact Hb); ipureintro
    sl_unfold_words
    rw [View.read_writes_junk_eq_canon, View.canon_unit_zero hz2]
    simp only [View.readAt_eq_ld, View.ld_unit_zero (S := S512x128) hz2, View.ld_unit_zero (S := S1024x128) hz2,
      View.ld_unit_zero (S := S512x1) hz2, View.ld_unit_zero (S := S1x1024) hz2]

/-- A last step (j = 7): the running buffers end one step further and the output block holds their hinge. -/
theorem run_last (hF : ¬ IsFirst t) (hL : IsLast t) (Q : PUnit → sProp 𝕄) :
    iprop(INS ∗ (∃ d, owns (c : Thread nD τ) M4 fullShare d) ∗ owns (c : Thread nD τ) posM fullShare a ∗ owns (c : Thread nD τ) negM fullShare b
      ∗ (iprop(INS ∗ owns (c : Thread nD τ) M4 fullShare (hingeOf (stepPos (grid0.coords t) x0 x1 x2 x3 a) (stepNeg x0 x1 x2 x3 b))
            ∗ owns (c : Thread nD τ) posM fullShare (stepPos (grid0.coords t) x0 x1 x2 x3 a)
            ∗ owns (c : Thread nD τ) negM fullShare (stepNeg x0 x1 x2 x3 b)) -∗ Q ⟨⟩))
      ⊢ wp frame (wpE (defs₀ (F := F)) Variants.none c none) Set.univ BODY Q := by
  unfold owns
  iintro ⟨⟨⟨%f0, %hf0, H0⟩, ⟨%f1, %hf1, H1⟩, ⟨%f2, %hf2, H2⟩, ⟨%f3, %hf3, H3⟩⟩, ⟨%d4, %f4, %hf4, H4⟩, ⟨%fa, %hfa, Ha⟩, ⟨%fb, %hfb, Hb⟩, Hk⟩
  subst hf0 hf1 hf2 hf3 hfa hfb
  sl_exec! (disch := assumption)
  sl_step
  iapply Hk
  isplitl [H0 H1 H2 H3]
  · isplitl [H0]; · iexists f0; isplitr; (· ipureintro; rfl); iexact H0
    isplitl [H1]; · iexists f1; isplitr; (· ipureintro; rfl); iexact H1
    isplitl [H2]; · iexists f2; isplitr; (· ipureintro; rfl); iexact H2
    iexists f3; isplitr; (· ipureintro; rfl); iexact H3
  isplitl [H4]
  · iexists _; isplitr; swap; (· iexact H4); ipureintro
    sl_unfold_words
    rw [View.read_writes_junk_eq_canon, View.canon_unit_zero hz2]
    simp only [View.readAt_eq_ld, View.ld_unit_zero (S := S512x128) hz2, View.ld_unit_zero (S := S1024x128) hz2,
      View.ld_unit_zero (S := S512x1) hz2, View.ld_unit_zero (S := S1x1024) hz2, View.readCov_unit_zero (S := S512x1) _ hz2]
  isplitl [Ha]
  · iexists _; isplitr; swap; (· iexact Ha); ipureintro
    sl_unfold_words
    rw [View.read_writes_junk_eq_canon, View.canon_unit_zero hz2]
    simp only [View.readAt_eq_ld, View.ld_unit_zero (S := S512x128) hz2, View.ld_unit_zero (S := S1024x128) hz2,
      View.ld_unit_zero (S := S512x1) hz2, View.ld_unit_zero (S := S1x1024) hz2]
  · iexists _; isplitr; swap; (· iexact Hb); ipureintro
    sl_unfold_words
    rw [View.read_writes_junk_eq_canon, View.canon_unit_zero hz2]
    simp only [View.readAt_eq_ld, View.ld_unit_zero (S := S512x128) hz2, View.ld_unit_zero (S := S1024x128) hz2,
      View.ld_unit_zero (S := S512x1) hz2, View.ld_unit_zero (S := S1x1024) hz2]

end Runs

end Cert.Triplet.KB

end
-- ==== Proof.DataBits.lean ====
/-
  The proof data of the one kernel region and the body obligation at every grid point.
  The 128 grid points run row tile by row tile (i = t / 8), eight column tiles each (j = t % 8). The two running
  buffers after point t are defined by recursion on t: at a row tile's first point one step from the reset values,
  at any other one step from what the point before left (`posA`, `negA`). The invariant before point k holds the
  two buffers at anything when k starts a row tile and at `posA (k-1)`, `negA (k-1)` otherwise; the output block a
  row tile's last point stores is the hinge of the two buffers there (`outAt`); the four input windows hold their
  blocks of the arrays as the region finds them. The embeddings are read by two windows, which hold the array at
  the two halves of the full share.
-/
import proofs.«102776_j52183852646786_1_alg».proof.Proof.BodyBits
import proofs.«102776_j52183852646786_1_alg».proof.Proof.Gen.Kernel.Points
import Idealize.ShloMosaic.Lib.Pipeline.Regions

noncomputable section

namespace Cert.Triplet.KB

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-- The pipeline library's algebra is the left component of the proof's. -/
abbrev EP : Emb (UR sig nD τ) (MT nD τ sig Unit (Elt F) ℕ UC ℕ) := embL

variable (m : (ℓ : Loc nD τ sig) → Buf (Elt F) ℓ) (ρ : Dev nD → PrngReg)

/-! ## The arrays as the region finds them -/

/-- Core `c`'s buffers at launch, as the host operations' valuation; -/
abbrev V₀ (c : Dev nD) : Valuation τ sig (Elt F) := fun b => (s₀ m ρ).mem ((c : Dev nD), b)
/-- and when the region is entered: the two reshapes of the labels have run. -/
abbrev V (c : Dev nD) (b : Ref sig .tc) : Buf (Elt F) ((c : Thread nD τ).loc b) := StableHlo.after hostOps0 (V₀ m ρ c) b

/-- Each window's array at the region's entry. -/
abbrev A (c : Dev nD) (w : Fin cfg0.W) : Buf (Elt F) ((cfg0.win w).arr.view.loc (c : Thread nD τ)) := V m ρ c (Pipeline.arrRef spec0 w)

/-- The four input blocks of point `t`: the embeddings' row block and column block, the labels' row and column block. -/
abbrev xrow (c : Dev nD) (t : Fin cfg0.N) : Vec F S512x128 .f32 := ((cfg0.win 0).blk t).view.read (Elt F) (A m ρ c 0)
abbrev xcol (c : Dev nD) (t : Fin cfg0.N) : Vec F S1024x128 .f32 := ((cfg0.win 1).blk t).view.read (Elt F) (A m ρ c 1)
abbrev lrow (c : Dev nD) (t : Fin cfg0.N) : Vec F S512x1 .i32 := ((cfg0.win 2).blk t).view.read (Elt F) (A m ρ c 2)
abbrev lcol (c : Dev nD) (t : Fin cfg0.N) : Vec F S1x1024 .i32 := ((cfg0.win 3).blk t).view.read (Elt F) (A m ρ c 3)

/-! ## The kinds of point -/

theorem isFirst_iff : ∀ t : Fin cfg0.N, IsFirst t ↔ t.val % 8 = 0 :=
  (by decide +kernel : ∀ t : Fin grid0.N, (Scalar.cmpi .ne (Scalar.extui (Scalar.cmpi .eq (BitVec.ofNat 32 ((grid0.coords t) 1).val) 0#32)) 0#32 = 1#1) ↔ t.val % 8 = 0)
theorem isLast_iff : ∀ t : Fin cfg0.N, IsLast t ↔ t.val % 8 = 7 :=
  (by decide +kernel : ∀ t : Fin grid0.N, k0_cond2 (grid0.coords t) = 1#1 ↔ t.val % 8 = 7)

theorem idle4_of_last (t : Fin cfg0.N) (h : IsLast t) : idle0 4 (grid0.coords t) = false := by
  show (!(k0_cond2 (grid0.coords t) == 1#1)) = false; rw [show (k0_cond2 (grid0.coords t) == 1#1) = true from beq_iff_eq.mpr h]; rfl
theorem idle4_of_not_last (t : Fin cfg0.N) (h : ¬ IsLast t) : idle0 4 (grid0.coords t) = true := by
  show (!(k0_cond2 (grid0.coords t) == 1#1)) = true; rw [show (k0_cond2 (grid0.coords t) == 1#1) = false from beq_eq_false_iff_ne.mpr h]; rfl
theorem idle_in0 (t : Fin cfg0.N) : idle0 0 (grid0.coords t) = false := rfl
theorem idle_in1 (t : Fin cfg0.N) : idle0 1 (grid0.coords t) = false := rfl
theorem idle_in2 (t : Fin cfg0.N) : idle0 2 (grid0.coords t) = false := rfl
theorem idle_in3 (t : Fin cfg0.N) : idle0 3 (grid0.coords t) = false := rfl
theorem flush4_of_last (t : Fin cfg0.N) (h : IsLast t) : (cfg0.win 4).flush t = true := (flush0_4 t).mpr ((isLast_iff t).mp h)
theorem flush4_of_not_last (t : Fin cfg0.N) (h : ¬ IsLast t) : (cfg0.win 4).flush t = false :=
  Bool.eq_false_iff.mpr fun hf => h ((isLast_iff t).mpr ((flush0_4 t).mp hf))

/-! ## The running buffers after each point -/

/-- The running maximum after point `k`. -/
def posA (c : Dev nD) : (k : ℕ) → k < cfg0.N → Vec F S512x1 .f32
  | 0, hk => stepPos (grid0.coords ⟨0, hk⟩) (xrow m ρ c ⟨0, hk⟩) (xcol m ρ c ⟨0, hk⟩) (lrow m ρ c ⟨0, hk⟩) (lcol m ρ c ⟨0, hk⟩) k0_pay4
  | k + 1, hk => stepPos (grid0.coords ⟨k + 1, hk⟩) (xrow m ρ c ⟨k + 1, hk⟩) (xcol m ρ c ⟨k + 1, hk⟩) (lrow m ρ c ⟨k + 1, hk⟩) (lcol m ρ c ⟨k + 1, hk⟩)
      (if (k + 1) % 8 = 0 then k0_pay4 else posA c k (Nat.lt_of_succ_lt hk))
/-- The running minimum after point `k`. -/
def negA (c : Dev nD) : (k : ℕ) → k < cfg0.N → Vec F S512x1 .f32
  | 0, hk => stepNeg (xrow m ρ c ⟨0, hk⟩) (xcol m ρ c ⟨0, hk⟩) (lrow m ρ c ⟨0, hk⟩) (lcol m ρ c ⟨0, hk⟩) k0_pay5
  | k + 1, hk => stepNeg (xrow m ρ c ⟨k + 1, hk⟩) (xcol m ρ c ⟨k + 1, hk⟩) (lrow m ρ c ⟨k + 1, hk⟩) (lcol m ρ c ⟨k + 1, hk⟩)
      (if (k + 1) % 8 = 0 then k0_pay5 else negA c k (Nat.lt_of_succ_lt hk))

theorem posA_first (c : Dev nD) (t : Fin cfg0.N) (h : t.val % 8 = 0) :
    posA m ρ c t.val t.isLt = stepPos (grid0.coords t) (xrow m ρ c t) (xcol m ρ c t) (lrow m ρ c t) (lcol m ρ c t) k0_pay4 := by
  obtain ⟨k, hk⟩ := t
  cases k with
  | zero => rfl
  | succ k => show stepPos _ _ _ _ _ (if (k + 1) % 8 = 0 then _ else _) = _; rw [if_pos h]
theorem negA_first (c : Dev nD) (t : Fin cfg0.N) (h : t.val % 8 = 0) :
    negA m ρ c t.val t.isLt = stepNeg (xrow m ρ c t) (xcol m ρ c t) (lrow m ρ c t) (lcol m ρ c t) k0_pay5 := by
  obtain ⟨k, hk⟩ := t
  cases k with
  | zero => rfl
  | succ k => show stepNeg _ _ _ _ (if (k + 1) % 8 = 0 then _ else _) = _; rw [if_pos h]
theorem posA_step (c : Dev nD) (t : Fin cfg0.N) (h : t.val % 8 ≠ 0) (hp : t.val - 1 < cfg0.N) :
    posA m ρ c t.val t.isLt = stepPos (grid0.coords t) (xrow m ρ c t) (xcol m ρ c t) (lrow m ρ c t) (lcol m ρ c t) (posA m ρ c (t.val - 1) hp) := by
  obtain ⟨k, hk⟩ := t
  cases k with
  | zero => exact absurd rfl h
  | succ k => show stepPos _ _ _ _ _ (if (k + 1) % 8 = 0 then _ else _) = _; rw [if_neg h]; rfl
theorem negA_step (c : Dev nD) (t : Fin cfg0.N) (h : t.val % 8 ≠ 0) (hp : t.val - 1 < cfg0.N) :
    negA m ρ c t.val t.isLt = stepNeg (xrow m ρ c t) (xcol m ρ c t) (lrow m ρ c t) (lcol m ρ c t) (negA m ρ c (t.val - 1) hp) := by
  obtain ⟨k, hk⟩ := t
  cases k with
  | zero => exact absurd rfl h
  | succ k => show stepNeg _ _ _ _ (if (k + 1) % 8 = 0 then _ else _) = _; rw [if_neg h]; rfl

/-- The block point `t` leaves in the output's staging buffer (read only at a row tile's last point). -/
def outAt (c : Dev nD) (t : Fin cfg0.N) : Vec F S512x1 .f32 := hingeOf (posA m ρ c t.val t.isLt) (negA m ρ c t.val t.isLt)

/-! ## The proof data -/

/-- The invariant before point `k` (k = 0 … 128). -/
def Φv (c : Dev nD) (k : Fin (cfg0.N + 1)) : sProp 𝕄 :=
  if h : k.val % 8 = 0 then iprop((∃ a, owns (c : Thread nD τ) posM fullShare a) ∗ ∃ b, owns (c : Thread nD τ) negM fullShare b)
  else iprop(owns (c : Thread nD τ) posM fullShare (posA m ρ c (k.val - 1) (by have := k.isLt; omega))
    ∗ owns (c : Thread nD τ) negM fullShare (negA m ρ c (k.val - 1) (by have := k.isLt; omega)))

def dats (_ : Fin 1) (c : Dev nD) : Dat τ (Elt F) Unit ℕ UC ℕ cfg0 c where
  A w := A m ρ c w
  after w t := match w with
    | ⟨0, _⟩ => xrow m ρ c t
    | ⟨1, _⟩ => xcol m ρ c t
    | ⟨2, _⟩ => lrow m ρ c t
    | ⟨3, _⟩ => lcol m ρ c t
    | ⟨4, _⟩ => outAt m ρ c t
  Φ k := Φv m ρ c k
  q w := match w with
    | ⟨0, _⟩ => fullShare.left
    | ⟨1, _⟩ => fullShare.right
    | _ => fullShare
  owed _ := 0

abbrev 𝒱₀ : Variants := Variants.none

theorem before_0 (c : Dev nD) (t : Fin cfg0.N) (d) : (dats m ρ 0 c).before 0 t d = xrow m ρ c t := by
  rw [(dats m ρ 0 c).before_in_eq_fetched 0 rfl (fun _ => rfl) (fun _ _ _ => rfl) (fun _ => rfl) t d]; rfl
theorem before_1 (c : Dev nD) (t : Fin cfg0.N) (d) : (dats m ρ 0 c).before 1 t d = xcol m ρ c t := by
  rw [(dats m ρ 0 c).before_in_eq_fetched 1 rfl (fun _ => rfl) (fun _ _ _ => rfl) (fun _ => rfl) t d]; rfl
theorem before_2 (c : Dev nD) (t : Fin cfg0.N) (d) : (dats m ρ 0 c).before 2 t d = lrow m ρ c t := by
  rw [(dats m ρ 0 c).before_in_eq_fetched 2 rfl (fun _ => rfl) (fun _ _ _ => rfl) (fun _ => rfl) t d]; rfl
theorem before_3 (c : Dev nD) (t : Fin cfg0.N) (d) : (dats m ρ 0 c).before 3 t d = lcol m ρ c t := by
  rw [(dats m ρ 0 c).before_in_eq_fetched 3 rfl (fun _ => rfl) (fun _ _ _ => rfl) (fun _ => rfl) t d]; rfl
theorem after_0 (c : Dev nD) (t : Fin cfg0.N) : (dats m ρ 0 c).after 0 t = xrow m ρ c t := rfl
theorem after_1 (c : Dev nD) (t : Fin cfg0.N) : (dats m ρ 0 c).after 1 t = xcol m ρ c t := rfl
theorem after_2 (c : Dev nD) (t : Fin cfg0.N) : (dats m ρ 0 c).after 2 t = lrow m ρ c t := rfl
theorem after_3 (c : Dev nD) (t : Fin cfg0.N) : (dats m ρ 0 c).after 3 t = lcol m ρ c t := rfl
theorem after_4 (c : Dev nD) (t : Fin cfg0.N) : (dats m ρ 0 c).after 4 t = outAt m ρ c t := rfl

theorem owesAt_intro (c : Dev nD) (t : Fin (cfg0.N + 1)) (W' : Waits sig Unit) :
    owes (c : Thread nD τ) 0 W' ⊢ ((dats m ρ 0 c).owesAt () t : sProp 𝕄) := by
  unfold Dat.owesAt Pipeline.owesWithin
  rw [show (dats m ρ 0 c).owed t = 0 from rfl]
  iintro HO; iexists W'; isplitr; · ipureintro; exact fun _ _ => Or.inl trivial
  iexact HO

/-- The invariant before and after point `t`, by the point's kind. -/
theorem Φ_pre_first (c : Dev nD) (t : Fin cfg0.N) (h : t.val % 8 = 0) :
    (dats m ρ 0 c).Φ t.castSucc = iprop((∃ a, owns (c : Thread nD τ) posM fullShare a) ∗ ∃ b, owns (c : Thread nD τ) negM fullShare b) := by
  show Φv m ρ c _ = _; unfold Φv; rw [dif_pos (by exact h)]
theorem Φ_pre_other (c : Dev nD) (t : Fin cfg0.N) (h : t.val % 8 ≠ 0) :
    (dats m ρ 0 c).Φ t.castSucc = iprop(owns (c : Thread nD τ) posM fullShare (posA m ρ c (t.val - 1) (by have := t.isLt; omega))
      ∗ owns (c : Thread nD τ) negM fullShare (negA m ρ c (t.val - 1) (by have := t.isLt; omega))) := by
  show Φv m ρ c _ = _; unfold Φv; rw [dif_neg (by exact h)]; rfl
theorem Φ_post_last (c : Dev nD) (t : Fin cfg0.N) (h : t.val % 8 = 7) :
    (dats m ρ 0 c).Φ t.succ = iprop((∃ a, owns (c : Thread nD τ) posM fullShare a) ∗ ∃ b, owns (c : Thread nD τ) negM fullShare b) := by
  show Φv m ρ c _ = _; unfold Φv; rw [dif_pos (by show (t.val + 1) % 8 = 0; omega)]
theorem Φ_post_other (c : Dev nD) (t : Fin cfg0.N) (h : t.val % 8 ≠ 7) :
    (dats m ρ 0 c).Φ t.succ = iprop(owns (c : Thread nD τ) posM fullShare (posA m ρ c t.val t.isLt) ∗ owns (c : Thread nD τ) negM fullShare (negA m ρ c t.val t.isLt)) := by
  show Φv m ρ c _ = _; unfold Φv; rw [dif_neg (by show ¬ (t.val + 1) % 8 = 0; omega)]; rfl

/-- The body obligation at every point, by the point's kind: that kind's run of the body between the invariant's two
    forms; the output's staging buffer passed through untouched except at a row tile's last point. -/
theorem body_obligation (c : Dev nD) : BodyObligation (dats (F := F) m ρ 0 c) (defs₀ (F := F)) 𝒱₀ () Set.univ := fun t => by
  rw [bigSep_W0, bigSep_W0]
  unfold Dat.owesAt Pipeline.owesWithin
  rw [show (dats m ρ 0 c).owed t.castSucc = 0 from rfl]
  by_cases hL : IsLast t
  · have h7 : t.val % 8 = 7 := (isLast_iff t).mp hL
    have hF : ¬ IsFirst t := fun h => by have := (isFirst_iff t).mp h; omega
    simp only [idle_in0, idle_in1, idle_in2, idle_in3, idle4_of_last t hL, flush4_of_last t hL, before_0, before_1, before_2, before_3,
      after_0, after_1, after_2, after_3, after_4]
    rw [Φ_pre_other m ρ c t (by omega), Φ_post_last m ρ c t h7,
      show outAt m ρ c t = hingeOf (posA m ρ c t.val t.isLt) (negA m ρ c t.val t.isLt) from rfl,
      posA_step m ρ c t (by omega) (by have := t.isLt; omega), negA_step m ρ c t (by omega) (by have := t.isLt; omega)]
    iintro ⟨⟨Ha, Hb⟩, ⟨%Wt, %hW, HO⟩, ⟨%d0, H0⟩, ⟨%d1, H1⟩, ⟨%d2, H2⟩, ⟨%d3, H3⟩, ⟨%d4, H4⟩⟩
    iapply (run_last c t (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
      (st0_4 t) (hstage0_4 ((cfg0.slots t 4).cast nbuf0_4)) (xrow m ρ c t) (xcol m ρ c t) (lrow m ρ c t) (lcol m ρ c t) _ _ hF hL)
    isplitl [H0 H1 H2 H3]
    · isplitl [H0]; · iexact H0
      isplitl [H1]; · iexact H1
      isplitl [H2]; · iexact H2
      iexact H3
    isplitl [H4]; · iexists _; iexact H4
    isplitl [Ha]; · iexact Ha
    isplitl [Hb]; · iexact Hb
    iintro ⟨⟨H0, H1, H2, H3⟩, H4, Ha, Hb⟩
    isplitl [Ha Hb]
    · isplitl [Ha]; · iexists _; iexact Ha
      iexists _; iexact Hb
    isplitl [HO]; · iapply (owesAt_intro m ρ c); iexact HO
    isplitl [H0]; · iexact H0
    isplitl [H1]; · iexact H1
    isplitl [H2]; · iexact H2
    isplitl [H3]; · iexact H3
    iexact H4
  · simp only [idle_in0, idle_in1, idle_in2, idle_in3, idle4_of_not_last t hL, flush4_of_not_last t hL, before_0, before_1, before_2, before_3,
      after_0, after_1, after_2, after_3]
    by_cases hF : IsFirst t
    · have h0 : t.val % 8 = 0 := (isFirst_iff t).mp hF
      rw [Φ_pre_first m ρ c t h0, Φ_post_other m ρ c t (by omega), posA_first m ρ c t h0, negA_first m ρ c t h0]
      iintro ⟨⟨Ha, Hb⟩, ⟨%Wt, %hW, HO⟩, ⟨%d0, H0⟩, ⟨%d1, H1⟩, ⟨%d2, H2⟩, ⟨%d3, H3⟩, H4⟩
      iapply (run_first c t (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3))
        (st0_4 t) (hstage0_4 ((cfg0.slots t 4).cast nbuf0_4)) (xrow m ρ c t) (xcol m ρ c t) (lrow m ρ c t) (lcol m ρ c t) hF hL _)
      isplitl [H0 H1 H2 H3]
      · isplitl [H0]; · iexact H0
        isplitl [H1]; · iexact H1
        isplitl [H2]; · iexact H2
        iexact H3
      isplitl [H4]; · iexact H4
      isplitl [Ha]; · iexact Ha
      isplitl [Hb]; · iexact Hb
      iintro ⟨⟨H0, H1, H2, H3⟩, H4, Ha, Hb⟩
      isplitl [Ha Hb]
      · isplitl [Ha] <;> iassumption
      isplitl [HO]; · iapply (owesAt_intro m ρ c); iexact HO
      isplitl [H0]; · iexact H0
      isplitl [H1]; · iexact H1
      isplitl [H2]; · iexact H2
      isplitl [H3]; · iexact H3
      iexact H4
    · have h1 : t.val % 8 ≠ 0 := fun h => hF ((isFirst_iff t).mpr h)
      have h2 : t.val % 8 ≠ 7 := fun h => hL ((isLast_iff t).mpr h)
      rw [Φ_pre_other m ρ c t h1, Φ_post_other m ρ c t h2, posA_step m ρ c t h1 (by have := t.isLt; omega), negA_step m ρ c t h1 (by have := t.isLt; omega)]
      iintro ⟨⟨Ha, Hb⟩, ⟨%Wt, %hW, HO⟩, ⟨%d0, H0⟩, ⟨%d1, H1⟩, ⟨%d2, H2⟩, ⟨%d3, H3⟩, H4⟩
      iapply (run_mid c t (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3))
        (st0_4 t) (hstage0_4 ((cfg0.slots t 4).cast nbuf0_4)) (xrow m ρ c t) (xcol m ρ c t) (lrow m ρ c t) (lcol m ρ c t) _ _ hF hL _)
      isplitl [H0 H1 H2 H3]
      · isplitl [H0]; · iexact H0
        isplitl [H1]; · iexact H1
        isplitl [H2]; · iexact H2
        iexact H3
      isplitl [H4]; · iexact H4
      isplitl [Ha]; · iexact Ha
      isplitl [Hb]; · iexact Hb
      iintro ⟨⟨H0, H1, H2, H3⟩, H4, Ha, Hb⟩
      isplitl [Ha Hb]
      · isplitl [Ha] <;> iassumption
      isplitl [HO]; · iapply (owesAt_intro m ρ c); iexact HO
      isplitl [H0]; · iexact H0
      isplitl [H1]; · iexact H1
      isplitl [H2]; · iexact H2
      isplitl [H3]; · iexact H3
      iexact H4

end Cert.Triplet.KB

end
-- ==== Proof.RunBits.lean ====
/-
  The launch: every weakly fair execution of @main terminates, and what the final memory holds.
  @main is two reshapes of the labels, the kernel region, and four host operations on the region's result (its sum
  and the quotient by the row count). It is run as three segments. Between segments the thread holds the core's
  nine HBM buffers whole at a valuation: at launch the launch contents, after the reshapes their results, after the
  region the same with the result array at what the pipeline wrote, at the end the tail's results over that.
  At the region's entry the embeddings' buffer is split along its share into the two halves the two windows that
  read it hold; at the exit the halves, still at the entry contents, are joined again.
-/
import proofs.«102776_j52183852646786_1_alg».proof.Proof.DataBits

noncomputable section

namespace Cert.Triplet.KB

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

variable (m : (ℓ : Loc nD τ sig) → Buf (Elt F) ℓ) (ρ : Dev nD → PrngReg)

/-! ## The core's HBM buffers -/

/-- The TensorCore's references that no region scopes, as device buffers: @main's nine arrays. -/
def hbmRefs : Finset (DevRef τ sig) := (StableHlo.tcRefs τ sig).filter fun b => ¬ b.isScoped

omit [FloatOps F] in
/-- Holding them at a valuation is holding the launch's unscoped buffers at it. -/
theorem held_hbm (c : Dev nD) (W : Valuation τ sig (Elt F)) :
    (StableHlo.held (c : Thread nD τ) hbmRefs W : sProp 𝕄) = unscopedBufs c (fun b => W b) := by
  unfold StableHlo.held hbmRefs StableHlo.tcRefs unscopedBufs
  rw [Finset.filter_map, bigSep_map]
  rfl

omit [FloatOps F] in
/-- A host operation over TensorCore references stays within them. -/
theorem bufs_sub_hbm (op : HloOp τ sig (Elt F)) (h : op.bufs ⊆ StableHlo.tcRefs τ sig) : op.bufs ⊆ hbmRefs := fun b hb =>
  Finset.mem_filter.mpr ⟨h hb, by rw [op.no_scoped b hb]; exact Bool.false_ne_true⟩

/-- One HBM buffer whole at given contents. -/
abbrev pt (c : Dev nD) (b : Ref sig .tc) (f : Buf (Elt F) ((c : Thread nD τ).loc b)) : sProp 𝕄 := ((c : Thread nD τ).loc b) ↦{fullShare} f

omit [FloatOps F] in
/-- The nine, one by one. -/
theorem unscopedBufs_nine (c : Dev nD) (W : (b : Ref sig .tc) → Buf (Elt F) ((c : Thread nD τ).loc b)) :
    (unscopedBufs c W : sProp 𝕄)
      = iprop(pt c main_arg0 (W main_arg0) ∗ pt c main_arg1 (W main_arg1) ∗ pt c main_v0 (W main_v0) ∗ pt c main_v1 (W main_v1) ∗ pt c main_v2 (W main_v2)
          ∗ pt c main_cst (W main_cst) ∗ pt c main_v3 (W main_v3) ∗ pt c main_cst_0 (W main_cst_0) ∗ pt c main_v4 (W main_v4)) := by
  unfold unscopedBufs
  exact bigSep_eq_bigSepL_of_eq [main_arg0, main_arg1, main_v0, main_v1, main_v2, main_cst, main_v3, main_cst_0, main_v4] (by decide) (by decide) _

/-! ## The valuations between the segments -/

open Classical in
/-- The buffers when the region is left: the result array at what the pipeline wrote, the rest as the region was entered. -/
def Vr (c : Dev nD) : Valuation τ sig (Elt F) :=
  Function.update (StableHlo.after hostOps0 (V₀ m ρ c)) (Proc.devRef .tc main_v2) ((dats m ρ 0 c).arrAt 4 cfg0.N)

theorem Vr_out (c : Dev nD) : Vr m ρ c (Proc.devRef .tc main_v2) = (dats m ρ 0 c).arrAt 4 cfg0.N := by
  unfold Vr; exact Function.update_self ..
theorem Vr_other (c : Dev nD) (b : Ref sig .tc) (h : b ≠ main_v2) : Vr m ρ c (Proc.devRef .tc b) = V m ρ c b := by
  unfold Vr; exact Function.update_of_ne (StableHlo.devRef_ne_of_ne h) ..

/-- The buffers at the end: the four tail operations have run. -/
abbrev Vend (c : Dev nD) : Valuation τ sig (Elt F) := StableHlo.after hostOps1 (Vr m ρ c)

/-! ## The segments -/

/-- What rides beside the buffers: the core owes nothing. -/
abbrev Ow (c : Dev nD) : sProp 𝕄 := iprop(∃ W, owes (c : Thread nD τ) (0 : CellTallies nD τ sig Unit) W)
abbrev L : GSem nD τ sig → Finset Unit := fun _ => ∅
abbrev lv : GSem nD τ sig → Unit → ℕ := fun _ _ => 0
abbrev adm : (p : Fin 1) → (pcfgs (F := F) p).Adm := fun p => (cfgs p).toPCfg_adm

/-- The two reshapes. -/
def seg0 : Pipeline.HostSeg (Name := ℕ) (U := UC) (pcfgs (F := F)) defs₀ 𝒱₀ L lv :=
  Pipeline.HostSeg.ofOps _ _ _ _ _ hbmRefs hostOps0 (fun op h => bufs_sub_hbm op ((List.forall_iff_forall_mem.mp hostOps0_sub) op h))
    (by intro op h; simp only [List.mem_cons, List.mem_nil_iff, or_false] at h; rcases h with rfl | rfl <;> rfl) (V₀ m ρ) Ow

/-- The sum and the quotient. -/
def seg1 : Pipeline.HostSeg (Name := ℕ) (U := UC) (pcfgs (F := F)) defs₀ 𝒱₀ L lv :=
  Pipeline.HostSeg.ofOps _ _ _ _ _ hbmRefs hostOps1 (fun op h => bufs_sub_hbm op ((List.forall_iff_forall_mem.mp hostOps1_sub) op h))
    (by intro op h; simp only [List.mem_cons, List.mem_nil_iff, or_false] at h; rcases h with rfl | rfl | rfl | rfl <;> rfl) (Vr m ρ) Ow

/-- The five HBM buffers no window of the region reads or writes. -/
abbrev rest5 (c : Dev nD) : sProp 𝕄 :=
  iprop(pt c main_arg1 (V m ρ c main_arg1) ∗ pt c main_cst (V m ρ c main_cst) ∗ pt c main_v3 (V m ρ c main_v3) ∗ pt c main_cst_0 (V m ρ c main_cst_0) ∗ pt c main_v4 (V m ρ c main_v4))

theorem share_in0 (c : Dev nD) : (dats m ρ 0 c).share 0 = fullShare.left := rfl
theorem share_in1 (c : Dev nD) : (dats m ρ 0 c).share 1 = fullShare.right := rfl
theorem share_in2 (c : Dev nD) : (dats m ρ 0 c).share 2 = fullShare := rfl
theorem share_in3 (c : Dev nD) : (dats m ρ 0 c).share 3 = fullShare := rfl
theorem share_out (c : Dev nD) : (dats m ρ 0 c).share 4 = fullShare := rfl

/-- The windows' arrays at contents `G`, one by one: the embeddings' two halves, the two label arrays, the result. -/
theorem arrays_five (c : Dev nD) (G : (w : Fin cfg0.W) → Buf (Elt F) ((cfg0.win w).arr.view.loc (c : Thread nD τ))) :
    ((dats m ρ 0 c).arrays G : sProp 𝕄)
      = iprop((((c : Thread nD τ).loc main_arg0) ↦{fullShare.left} G 0) ∗ (((c : Thread nD τ).loc main_arg0) ↦{fullShare.right} G 1)
          ∗ pt c main_v0 (G 2) ∗ pt c main_v1 (G 3) ∗ pt c main_v2 (G 4)) := by
  unfold Dat.arrays
  rw [bigSep_W0]
  simp only [(arr_whole0 0).set_eq_univ, (arr_whole0 1).set_eq_univ, (arr_whole0 2).set_eq_univ, (arr_whole0 3).set_eq_univ, (arr_whole0 4).set_eq_univ,
    share_in0, share_in1, share_in2, share_in3, share_out]

-- `iapply` of a library lemma stated over `cfgs p` at the pinned configuration unifies only when unification may
-- unfold plain definitions in a metavariable's type
set_option backward.isDefEq.respectTransparency.types false in
/-- The region. -/
def reg0 : Pipeline.RegionSeg (pcfgs (F := F)) adm (dats m ρ) () defs₀ 𝒱₀ L lv 0 where
  win := winFacts₀0
  block_pos := block_pos0
  stage_whole := stage_whole0
  K := PEmpty
  osem := fun k => k.elim
  ho := Pipeline.OwnSemFacts.none _
  hbody c := (body_obligation m ρ c).loose
  hwaits := Pipeline.hwaits_of_owed_zero _ _ _ _ L lv 0 fun _ _ => rfl
  pre c := iprop(StableHlo.held (c : Thread nD τ) hbmRefs (StableHlo.after hostOps0 (V₀ m ρ c)) ∗ Ow c)
  post c := iprop(StableHlo.held (c : Thread nD τ) hbmRefs (Vr m ρ c) ∗ Ow c)
  X _ := iprop(emp)
  Y _ := iprop(emp)
  Z c := rest5 m ρ c
  hentry c := by
    rw [held_hbm, unscopedBufs_nine, arrays_five]
    iintro ⟨⟨⟨Ha0, Ha1, Hv0, Hv1, Hv2, Hc, Hv3, Hc0, Hv4⟩, HO⟩, -, -⟩
    ihave Hs := (pointsTo_share (PosShare.mem_left_op_right fullShare)).1 $$ Ha0
    icases Hs with ⟨Hl, Hr⟩
    imodintro
    isplitl [Hl Hr Hv0 Hv1 Hv2]
    · isplitl [Hl]; · iexact Hl
      isplitl [Hr]; · iexact Hr
      isplitl [Hv0]; · iexact Hv0
      isplitl [Hv1]; · iexact Hv1
      iexact Hv2
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Ha1]; · iexact Ha1
    isplitl [Hc]; · iexact Hc
    isplitl [Hv3]; · iexact Hv3
    isplitl [Hc0]; · iexact Hc0
    iexact Hv4
  hin c := by
    rw [show (dats m ρ 0 c).Φ 0 = Φv m ρ c 0 from rfl, scopedRest0_eq]
    unfold Φv; rw [dif_pos (by decide)]
    simp only [owns_whole_eq]
    iintro ⟨-, -, ⟨%f, Hf⟩, ⟨%g, Hg⟩⟩
    isplitl [Hf]
    · iexists f; iexists f; isplitr; (· ipureintro; rfl); iexact Hf
    · iexists g; iexists g; isplitr; (· ipureintro; rfl); iexact Hg
  hout c := by
    rw [show (dats m ρ 0 c).Φ (Fin.last cfg0.N) = Φv m ρ c (Fin.last cfg0.N) from rfl, scopedRest0_eq, Pipeline.ownSems0_none]
    unfold Φv; rw [dif_pos (by decide)]
    simp only [owns_whole_eq]
    iintro ⟨⟨%a, %f, %hf, Hf⟩, ⟨%b, %g, %hg, Hg⟩⟩
    isplitr; · iempintro
    isplitr; · iempintro
    isplitl [Hf]; · iexists f; iexact Hf
    iexists g; iexact Hg
  hexit c := by
    rw [held_hbm, unscopedBufs_nine, arrays_five]
    simp only [Vr_out, Vr_other m ρ c main_arg0 (by decide), Vr_other m ρ c main_arg1 (by decide), Vr_other m ρ c main_v0 (by decide),
      Vr_other m ρ c main_v1 (by decide), Vr_other m ρ c main_cst (by decide), Vr_other m ρ c main_v3 (by decide),
      Vr_other m ρ c main_cst_0 (by decide), Vr_other m ρ c main_v4 (by decide),
      (dats m ρ 0 c).arrAt_in 0 rfl, (dats m ρ 0 c).arrAt_in 1 rfl, (dats m ρ 0 c).arrAt_in 2 rfl, (dats m ρ 0 c).arrAt_in 3 rfl]
    iintro ⟨⟨Hl, Hr, Hv0, Hv1, Hv2⟩, HO, -, ⟨Ha1, Hc, Hv3, Hc0, Hv4⟩⟩
    ihave Ha0 := (pointsTo_share (PosShare.mem_left_op_right fullShare)).2 $$ [Hl Hr]
    · isplitl [Hl]; · iexact Hl
      iexact Hr
    imodintro
    isplitr [HO]
    · isplitl [Ha0]; · iexact Ha0
      isplitl [Ha1]; · iexact Ha1
      isplitl [Hv0]; · iexact Hv0
      isplitl [Hv1]; · iexact Hv1
      isplitl [Hv2]; · iexact Hv2
      isplitl [Hc]; · iexact Hc
      isplitl [Hv3]; · iexact Hv3
      isplitl [Hc0]; · iexact Hc0
      iexact Hv4
    · unfold Pipeline.Dat.owesAt Pipeline.owesWithin
      icases HO with ⟨%W, -, HO⟩; iexists W; iexact HO

/-- @main as the list of the three. -/
abbrev segs : List (Pipeline.Seg (pcfgs (F := F)) adm (dats m ρ) () defs₀ 𝒱₀ L lv) := [.host (seg0 m ρ), .region (reg0 m ρ), .host (seg1 m ρ)]

/-- The launch element: the pipeline library's at the staging cells; no counter. -/
def u₀ : UC := (initOf (Pipeline.cells cfgs cellOf_inj) (Pipeline.launchToks cfgs cellOf_inj), 1)

omit [FloatOps F] in
/-- Nothing, on every core, is nothing. -/
theorem emp_all : (BI.emp : sProp 𝕄) ⊢ bigSep Finset.univ (fun _ : Dev nD => (BI.emp : sProp 𝕄)) :=
  Entails.of_eq (BI.bigSep_emp_const _).symm

/-- What is read of the final memory: all nine HBM buffers at the end valuation. -/
def QC : PUnit × MemSt nD τ sig (Elt F) → Prop := fun r =>
  ∀ (c : Dev nD) (b : Ref sig .tc), b.isScoped = false → r.2.mem ((c : Thread nD τ).loc b) = Vend m ρ c (Proc.devRef .tc b)

-- the launch theorem's implicit arguments are found by unifying its conclusion with this one, which takes unfolding
-- plain definitions in a metavariable's type
set_option backward.isDefEq.respectTransparency.types false in
/-- From any memory with every semaphore at zero: every weakly fair execution of @main on the TensorCores
    terminates, nothing faulting, and the final memory holds the nine HBM buffers at the end valuation. -/
theorem run_main : θ_run defs (onTc (τ := τ) (main (F := F))) (s₀ m ρ) (QC m ρ) :=
  Pipeline.θ_run_regions_kit (pcfgs (F := F)) adm (dats m ρ) () cellOf_inj EP defs₀ 𝒱₀ L lv m ρ main (segs m ρ)
    (fun c Q => by rw [main_segs adm (dats m ρ) () 𝒱₀ L lv (seg0 m ρ) (seg1 m ρ) (reg0 m ρ) rfl rfl c])
    (by simp only [Pipeline.Seg.pipes_host, Pipeline.Seg.pipes_region, Pipeline.Seg.pipes_nil]; decide)
    (O₀ := 0) (hL := fun _ _ => rfl) (G := fun _ => (BI.emp : sProp 𝕄)) (u₀ := u₀)
    (hu₀ := by
      unfold u₀
      refine (ownU_pair _ _).trans ?_
      iintro ⟨HP, -⟩
      imodintro
      isplitl [HP]; · iexact HP
      iapply emp_all; iempintro)
    (T₀ := fun c => iprop(StableHlo.held (c : Thread nD τ) hbmRefs (V₀ m ρ c) ∗ Ow c))
    (Tₙ := fun c => StableHlo.held (c : Thread nD τ) hbmRefs (Vend m ρ c))
    (hch := ⟨fun _ => .rfl, fun _ => .rfl, fun _ => .rfl, fun _ => .rfl⟩)
    (hinit := by
      refine Pipeline.initEach L lv fun c => ?_
      rw [held_hbm]
      iintro ⟨⟨Hb, -, HO, -, -, -⟩, -⟩
      imodintro
      isplitl [Hb]; · iexact Hb
      iexists ∅; iexact HO)
    (QY := fun c s => ∀ b : Ref sig .tc, b.isScoped = false → s.mem ((c : Thread nD τ).loc b) = Vend m ρ c (Proc.devRef .tc b))
    (hfin := fun c s' => by
      rw [held_hbm]; unfold unscopedBufs
      iintro ⟨Hb, HSI⟩
      ihave Hr := (pointsTo_read_all (Finset.univ.filter fun b : Ref sig .tc => ¬ b.isScoped) (fun b => (c : Thread nD τ).loc b)
        (fun b => Vend m ρ c (Proc.devRef .tc b)) s') $$ [Hb HSI]
      · isplitl [Hb] <;> iassumption
      icases Hr with ⟨%h, HSI⟩
      imodintro
      isplitr
      · ipureintro; exact fun b hb => h b (Finset.mem_filter.mpr ⟨Finset.mem_univ _, by rw [hb]; exact Bool.false_ne_true⟩)
      iexact HSI)
    (hQ := fun _ h c => h c)

/-! ## The arguments at the end -/

/-- No operation of @main writes the embeddings: the end valuation has them as launched. -/
theorem Vend_arg0 (c : Dev nD) : Vend m ρ c (Proc.devRef .tc main_arg0) = m ((c : Thread nD τ).loc main_arg0) := by
  show StableHlo.after hostOps1 (Vr m ρ c) (Proc.devRef .tc main_arg0) = _
  after_results
  rw [Vr_other m ρ c main_arg0 (by decide)]
  show StableHlo.after hostOps0 (V₀ m ρ c) (Proc.devRef .tc main_arg0) = _
  after_results
/-- Nor the labels. -/
theorem Vend_arg1 (c : Dev nD) : Vend m ρ c (Proc.devRef .tc main_arg1) = m ((c : Thread nD τ).loc main_arg1) := by
  show StableHlo.after hostOps1 (Vr m ρ c) (Proc.devRef .tc main_arg1) = _
  after_results
  rw [Vr_other m ρ c main_arg1 (by decide)]
  show StableHlo.after hostOps0 (V₀ m ρ c) (Proc.devRef .tc main_arg1) = _
  after_results

/-- The result at the end: the sum of the region's result array from the zero constant, divided by the row count. -/
theorem Vend_result (c : Dev nD) :
    Vend m ρ c (Proc.devRef .tc main_v4)
      = Host.divf (Host.reduceAdd ((dats m ρ 0 c).arrAt 4 cfg0.N) (constant S_ .f32 0x00000000#32) reducesTo_S8192x1_S_d0_1 h_S_) (constant S_ .f32 0x46000000#32) := by
  show StableHlo.after hostOps1 (Vr m ρ c) (Proc.devRef .tc main_v4) = _
  after_results
  rw [Vr_out]

/-- The frame: @main runs to the end and both arguments end as launched. -/
theorem frame_run : θ_run defs (onTc (τ := τ) (main (F := F))) ⟨m, fun _ => 0, ρ⟩ (fun r => ∀ c : Dev nD,
    r.2.mem ((c : Thread nD τ).loc main_arg0) = m ((c : Thread nD τ).loc main_arg0)
    ∧ r.2.mem ((c : Thread nD τ).loc main_arg1) = m ((c : Thread nD τ).loc main_arg1)) :=
  (θ_run defs _ _).mono (fun _ h c => ⟨(h c main_arg0 rfl).trans (Vend_arg0 m ρ c), (h c main_arg1 rfl).trans (Vend_arg1 m ρ c)⟩) (run_main m ρ)

end Cert.Triplet.KB

end
-- ==== Proof.BodyIdeal.lean ====
/-
  The kernel body at a symbolic grid point. The grid is 16 row tiles by 8 column tiles; at point (i, j) the body
  reads a 512-row block and a 1024-row block of the embeddings and the two label blocks, forms the 512×1024 tile of
  distances and of label agreements, and folds the tile's row maxima (over positives) and row minima (over
  negatives) into two 512×1 running buffers, which it first resets when j = 0; when j = 7 it stores the hinge of
  the two running buffers into the output block. Three kinds of point — a row tile's first column tile, a middle
  one, its last — and one run of the body for each, from the four input blocks at given contents and the two
  running buffers at given contents (at anything, for a first step): what the running buffers and the output
  block hold afterwards, as the body's own arithmetic (`stepPos`, `stepNeg`, `hingeOf`) of what they held before.
-/
import proofs.«102776_j52183852646786_1_alg».proof.Proof.Gen.KernelIdeal
import proofs.«102776_j52183852646786_1_alg».proof.Proof.Gen.KernelIdeal.Skeleton
import proofs.«102776_j52183852646786_1_alg».proof.Proof.Gen.KernelIdeal.Launch
import Idealize.ShloMosaic.Lib.Writes
import Idealize.ShloMosaic.Lib.Pipeline.FrameBody
import Idealize.ShloMosaic.Lib.Pipeline.Value
import Idealize.ShloMosaic.Lib.Tactic

noncomputable section

namespace Cert.Triplet.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra: the pipeline library's rounds copy beside the counters. -/
abbrev UC : Type := UR sig nD τ × Counters
local notation "𝕄" => MT nD τ sig Unit (Elt F) ℕ UC ℕ

/-- The running maximum's and the running minimum's buffers. -/
abbrev posM : Memref sig .tc .vmem S512x1 .f32 := Memref.whole cc0_scratch0
abbrev negM : Memref sig .tc .vmem S512x1 .f32 := Memref.whole cc0_scratch1

theorem hz2 : (![0, 0] : Fin 2 → Nat) = fun _ => 0 := by
  funext a; match a with | ⟨0, _⟩ => rfl | ⟨1, _⟩ => rfl

/-- "j = 0" as the body computes it, "j = 7" as the printed condition names it. -/
abbrev IsFirst (t : Fin cfg0.N) : Prop := Scalar.cmpi .ne (Scalar.extui (Scalar.cmpi .eq (BitVec.ofNat 32 ((grid0.coords t) 1).val) 0#32)) 0#32 = 1#1
abbrev IsLast (t : Fin cfg0.N) : Prop := k0_cond2 (grid0.coords t) = 1#1

/-- The column numbers of a tile's lanes: 0 … 1023. -/
abbrev lanes : IVec S1x1024 32 := iota .tc S1x1024 32 [1] iota_S1x1024_d1_w32

/-- One step of the running maximum over positives: the previous contents `a` against the row maxima of the tile
    (point `i`, embeddings blocks `x0` (rows) and `x1` (columns), label blocks `x2`, `x3`). -/
abbrev stepPos (i : grid0.Coords) (x0 : Vec F S512x128 .f32) (x1 : Vec F S1024x128 .f32) (x2 : Vec F S512x1 .i32) (x3 : Vec F S1x1024 .i32)
    (a : Vec F S512x1 .f32) : Vec F S512x1 .f32 :=
  k0_pay1 (k0_pay6 x0 x1) (k0_pay7 x2 x3) (k0_pay8 i) (Scalar.muli (BitVec.ofNat 32 (i 1).val) 1024#32) lanes a
/-- One step of the running minimum over negatives. -/
abbrev stepNeg (x0 : Vec F S512x128 .f32) (x1 : Vec F S1024x128 .f32) (x2 : Vec F S512x1 .i32) (x3 : Vec F S1x1024 .i32)
    (b : Vec F S512x1 .f32) : Vec F S512x1 .f32 :=
  k0_pay2 (k0_pay6 x0 x1) (k0_pay7 x2 x3) b
/-- The hinge of the two running buffers. -/
abbrev hingeOf (a b : Vec F S512x1 .f32) : Vec F S512x1 .f32 := k0_pay3 a b

section Runs

variable (c : Dev nD) (t : Fin cfg0.N)
  (M0 : Memref sig .tc .vmem S512x128 .f32) (h0 : M0.IsWhole) (M1 : Memref sig .tc .vmem S1024x128 .f32) (h1 : M1.IsWhole)
  (M2 : Memref sig .tc .vmem S512x1 .i32) (h2 : M2.IsWhole) (M3 : Memref sig .tc .vmem S1x1024 .i32) (h3 : M3.IsWhole)
  (M4 : Memref sig .tc .vmem S512x1 .f32) (h4 : M4.IsWhole)
  (x0 : Vec F S512x128 .f32) (x1 : Vec F S1024x128 .f32) (x2 : Vec F S512x1 .i32) (x3 : Vec F S1x1024 .i32) (a b : Vec F S512x1 .f32)

local notation "BODY" => cc0__triplet_kernel (grid0.coords t) M0 h0 M1 h1 M2 h2 M3 h3 M4 h4 (Memref.whole cc0_scratch0) (Memref.isWhole_whole _) (Memref.whole cc0_scratch1) (Memref.isWhole_whole _)
local notation "INS" => iprop(owns (c : Thread nD τ) M0 fullShare x0 ∗ owns (c : Thread nD τ) M1 fullShare x1 ∗ owns (c : Thread nD τ) M2 fullShare x2 ∗ owns (c : Thread nD τ) M3 fullShare x3)

/-- A first step (j = 0): the running buffers, whatever they held, end at one step from the reset values; the
    output block is untouched. -/
theorem run_first (hF : IsFirst t) (hL : ¬ IsLast t) (O : sProp 𝕄) (Q : PUnit → sProp 𝕄) :
    iprop(INS ∗ O ∗ (∃ a, owns (c : Thread nD τ) posM fullShare a) ∗ (∃ b, owns (c : Thread nD τ) negM fullShare b)
      ∗ (iprop(INS ∗ O ∗ owns (c : Thread nD τ) posM fullShare (stepPos (grid0.coords t) x0 x1 x2 x3 k0_pay4)
            ∗ owns (c : Thread nD τ) negM fullShare (stepNeg x0 x1 x2 x3 k0_pay5)) -∗ Q ⟨⟩))
      ⊢ wp frame (wpE (defs₀ (F := F)) Variants.none c none) Set.univ BODY Q := by
  unfold owns
  iintro ⟨⟨⟨%f0, %hf0, H0⟩, ⟨%f1, %hf1, H1⟩, ⟨%f2, %hf2, H2⟩, ⟨%f3, %hf3, H3⟩⟩, HO, ⟨%a', %fa, %hfa, Ha⟩, ⟨%b', %fb, %hfb, Hb⟩, Hk⟩
  subst hf0 hf1 hf2 hf3
  sl_exec! (disch := assumption)
  sl_step
  iapply Hk
  isplitl [H0 H1 H2 H3]
  · isplitl [H0]; · iexists f0; isplitr; (· ipureintro; rfl); iexact H0
    isplitl [H1]; · iexists f1; isplitr; (· ipureintro; rfl); iexact H1
    isplitl [H2]; · iexists f2; isplitr; (· ipureintro; rfl); iexact H2
    iexists f3; isplitr; (· ipureintro; rfl); iexact H3
  isplitl [HO]; · iexact HO
  isplitl [Ha]
  · iexists _; isplitr; swap; (· iexact Ha); ipureintro
    sl_unfold_words
    rw [View.read_writes_junk_eq_canon, View.canon_cons_unit_zero hz2]
    simp only [View.readAt_eq_ld, View.ld_unit_zero (S := S512x128) hz2, View.ld_unit_zero (S := S1024x128) hz2,
      View.ld_unit_zero (S := S512x1) hz2, View.ld_unit_zero (S := S1x1024) hz2, View.readCov_unit_zero (S := S512x1) _ hz2]
  · iexists _; isplitr; swap; (· iexact Hb); ipureintro
    sl_unfold_words
    rw [View.read_writes_junk_eq_canon, View.canon_cons_unit_zero hz2]
    simp only [View.readAt_eq_ld, View.ld_unit_zero (S := S512x128) hz2, View.ld_unit_zero (S := S1024x128) hz2,
      View.ld_unit_zero (S := S512x1) hz2, View.ld_unit_zero (S := S1x1024) hz2, View.readCov_unit_zero (S := S512x1) _ hz2]

/-- A middle step: the running buffers at `a`, `b` end one step further; the output block is untouched. -/
theorem run_mid (hF : ¬ IsFirst t) (hL : ¬ IsLast t) (O : sProp 𝕄) (Q : PUnit → sProp 𝕄) :
    iprop(INS ∗ O ∗ owns (c : Thread nD τ) posM fullShare a ∗ owns (c : Thread nD τ) negM fullShare b
      ∗ (iprop(INS ∗ O ∗ owns (c : Thread nD τ) posM fullShare (stepPos (grid0.coords t) x0 x1 x2 x3 a)
            ∗ owns (c : Thread nD τ) negM fullShare (stepNeg x0 x1 x2 x3 b)) -∗ Q ⟨⟩))
      ⊢ wp frame (wpE (defs₀ (F := F)) Variants.none c none) Set.univ BODY Q := by
  unfold owns
  iintro ⟨⟨⟨%f0, %hf0, H0⟩, ⟨%f1, %hf1, H1⟩, ⟨%f2, %hf2, H2⟩, ⟨%f3, %hf3, H3⟩⟩, HO, ⟨%fa, %hfa, Ha⟩, ⟨%fb, %hfb, Hb⟩, Hk⟩
  subst hf0 hf1 hf2 hf3 hfa hfb
  sl_exec! (disch := assumption)
  sl_step
  iapply Hk
  isplitl [H0 H1 H2 H3]
  · isplitl [H0]; · iexists f0; isplitr; (· ipureintro; rfl); iexact H0
    isplitl [H1]; · iexists f1; isplitr; (· ipureintro; rfl); iexact H1
    isplitl [H2]; · iexists f2; isplitr; (· ipureintro; rfl); iexact H2
    iexists f3; isplitr; (· ipureintro; rfl); iexact H3
  isplitl [HO]; · iexact HO
  isplitl [Ha]
  · iexists _; isplitr; swap; (· iexact Ha); ipureintro
    sl_unfold_words
    rw [View.read_writes_junk_eq_canon, View.canon_unit_zero hz2]
    simp only [View.readAt_eq_ld, View.ld_unit_zero (S := S512x128) hz2, View.ld_unit_zero (S := S1024x128) hz2,
      View.ld_unit_zero (S := S512x1) hz2, View.ld_unit_zero (S := S1x1024) hz2]
  · iexists _; isplitr; swap; (· iexact Hb); ipureintro
    sl_unfold_words
    rw [View.read_writes_junk_eq_canon, View.canon_unit_zero hz2]
    simp only [View.readAt_eq_ld, View.ld_unit_zero (S := S512x128) hz2, View.ld_unit_zero (S := S1024x128) hz2,
      View.ld_unit_zero (S := S512x1) hz2, View.ld_unit_zero (S := S1x1024) hz2]

/-- A last step (j = 7): the running buffers end one step further and the output block holds their hinge. -/
theorem run_last (hF : ¬ IsFirst t) (hL : IsLast t) (Q : PUnit → sProp 𝕄) :
    iprop(INS ∗ (∃ d, owns (c : Thread nD τ) M4 fullShare d) ∗ owns (c : Thread nD τ) posM fullShare a ∗ owns (c : Thread nD τ) negM fullShare b
      ∗ (iprop(INS ∗ owns (c : Thread nD τ) M4 fullShare (hingeOf (stepPos (grid0.coords t) x0 x1 x2 x3 a) (stepNeg x0 x1 x2 x3 b))
            ∗ owns (c : Thread nD τ) posM fullShare (stepPos (grid0.coords t) x0 x1 x2 x3 a)
            ∗ owns (c : Thread nD τ) negM fullShare (stepNeg x0 x1 x2 x3 b)) -∗ Q ⟨⟩))
      ⊢ wp frame (wpE (defs₀ (F := F)) Variants.none c none) Set.univ BODY Q := by
  unfold owns
  iintro ⟨⟨⟨%f0, %hf0, H0⟩, ⟨%f1, %hf1, H1⟩, ⟨%f2, %hf2, H2⟩, ⟨%f3, %hf3, H3⟩⟩, ⟨%d4, %f4, %hf4, H4⟩, ⟨%fa, %hfa, Ha⟩, ⟨%fb, %hfb, Hb⟩, Hk⟩
  subst hf0 hf1 hf2 hf3 hfa hfb
  sl_exec! (disch := assumption)
  sl_step
  iapply Hk
  isplitl [H0 H1 H2 H3]
  · isplitl [H0]; · iexists f0; isplitr; (· ipureintro; rfl); iexact H0
    isplitl [H1]; · iexists f1; isplitr; (· ipureintro; rfl); iexact H1
    isplitl [H2]; · iexists f2; isplitr; (· ipureintro; rfl); iexact H2
    iexists f3; isplitr; (· ipureintro; rfl); iexact H3
  isplitl [H4]
  · iexists _; isplitr; swap; (· iexact H4); ipureintro
    sl_unfold_words
    rw [View.read_writes_junk_eq_canon, View.canon_unit_zero hz2]
    simp only [View.readAt_eq_ld, View.ld_unit_zero (S := S512x128) hz2, View.ld_unit_zero (S := S1024x128) hz2,
      View.ld_unit_zero (S := S512x1) hz2, View.ld_unit_zero (S := S1x1024) hz2, View.readCov_unit_zero (S := S512x1) _ hz2]
  isplitl [Ha]
  · iexists _; isplitr; swap; (· iexact Ha); ipureintro
    sl_unfold_words
    rw [View.read_writes_junk_eq_canon, View.canon_unit_zero hz2]
    simp only [View.readAt_eq_ld, View.ld_unit_zero (S := S512x128) hz2, View.ld_unit_zero (S := S1024x128) hz2,
      View.ld_unit_zero (S := S512x1) hz2, View.ld_unit_zero (S := S1x1024) hz2]
  · iexists _; isplitr; swap; (· iexact Hb); ipureintro
    sl_unfold_words
    rw [View.read_writes_junk_eq_canon, View.canon_unit_zero hz2]
    simp only [View.readAt_eq_ld, View.ld_unit_zero (S := S512x128) hz2, View.ld_unit_zero (S := S1024x128) hz2,
      View.ld_unit_zero (S := S512x1) hz2, View.ld_unit_zero (S := S1x1024) hz2]

end Runs

end Cert.Triplet.KI

end
-- ==== Proof.DataIdeal.lean ====
/-
  The proof data of the one kernel region and the body obligation at every grid point.
  The 128 grid points run row tile by row tile (i = t / 8), eight column tiles each (j = t % 8). The two running
  buffers after point t are defined by recursion on t: at a row tile's first point one step from the reset values,
  at any other one step from what the point before left (`posA`, `negA`). The invariant before point k holds the
  two buffers at anything when k starts a row tile and at `posA (k-1)`, `negA (k-1)` otherwise; the output block a
  row tile's last point stores is the hinge of the two buffers there (`outAt`); the four input windows hold their
  blocks of the arrays as the region finds them. The embeddings are read by two windows, which hold the array at
  the two halves of the full share.
-/
import proofs.«102776_j52183852646786_1_alg».proof.Proof.BodyIdeal
import proofs.«102776_j52183852646786_1_alg».proof.Proof.Gen.KernelIdeal.Points
import Idealize.ShloMosaic.Lib.Pipeline.Regions

noncomputable section

namespace Cert.Triplet.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-- The pipeline library's algebra is the left component of the proof's. -/
abbrev EP : Emb (UR sig nD τ) (MT nD τ sig Unit (Elt F) ℕ UC ℕ) := embL

variable (m : (ℓ : Loc nD τ sig) → Buf (Elt F) ℓ) (ρ : Dev nD → PrngReg)

/-! ## The arrays as the region finds them -/

/-- Core `c`'s buffers at launch, as the host operations' valuation; -/
abbrev V₀ (c : Dev nD) : Valuation τ sig (Elt F) := fun b => (s₀ m ρ).mem ((c : Dev nD), b)
/-- and when the region is entered: the two reshapes of the labels have run. -/
abbrev V (c : Dev nD) (b : Ref sig .tc) : Buf (Elt F) ((c : Thread nD τ).loc b) := StableHlo.after hostOps0 (V₀ m ρ c) b

/-- Each window's array at the region's entry. -/
abbrev A (c : Dev nD) (w : Fin cfg0.W) : Buf (Elt F) ((cfg0.win w).arr.view.loc (c : Thread nD τ)) := V m ρ c (Pipeline.arrRef spec0 w)

/-- The four input blocks of point `t`: the embeddings' row block and column block, the labels' row and column block. -/
abbrev xrow (c : Dev nD) (t : Fin cfg0.N) : Vec F S512x128 .f32 := ((cfg0.win 0).blk t).view.read (Elt F) (A m ρ c 0)
abbrev xcol (c : Dev nD) (t : Fin cfg0.N) : Vec F S1024x128 .f32 := ((cfg0.win 1).blk t).view.read (Elt F) (A m ρ c 1)
abbrev lrow (c : Dev nD) (t : Fin cfg0.N) : Vec F S512x1 .i32 := ((cfg0.win 2).blk t).view.read (Elt F) (A m ρ c 2)
abbrev lcol (c : Dev nD) (t : Fin cfg0.N) : Vec F S1x1024 .i32 := ((cfg0.win 3).blk t).view.read (Elt F) (A m ρ c 3)

/-! ## The kinds of point -/

theorem isFirst_iff : ∀ t : Fin cfg0.N, IsFirst t ↔ t.val % 8 = 0 :=
  (by decide +kernel : ∀ t : Fin grid0.N, (Scalar.cmpi .ne (Scalar.extui (Scalar.cmpi .eq (BitVec.ofNat 32 ((grid0.coords t) 1).val) 0#32)) 0#32 = 1#1) ↔ t.val % 8 = 0)
theorem isLast_iff : ∀ t : Fin cfg0.N, IsLast t ↔ t.val % 8 = 7 :=
  (by decide +kernel : ∀ t : Fin grid0.N, k0_cond2 (grid0.coords t) = 1#1 ↔ t.val % 8 = 7)

theorem idle4_of_last (t : Fin cfg0.N) (h : IsLast t) : idle0 4 (grid0.coords t) = false := by
  show (!(k0_cond2 (grid0.coords t) == 1#1)) = false; rw [show (k0_cond2 (grid0.coords t) == 1#1) = true from beq_iff_eq.mpr h]; rfl
theorem idle4_of_not_last (t : Fin cfg0.N) (h : ¬ IsLast t) : idle0 4 (grid0.coords t) = true := by
  show (!(k0_cond2 (grid0.coords t) == 1#1)) = true; rw [show (k0_cond2 (grid0.coords t) == 1#1) = false from beq_eq_false_iff_ne.mpr h]; rfl
theorem idle_in0 (t : Fin cfg0.N) : idle0 0 (grid0.coords t) = false := rfl
theorem idle_in1 (t : Fin cfg0.N) : idle0 1 (grid0.coords t) = false := rfl
theorem idle_in2 (t : Fin cfg0.N) : idle0 2 (grid0.coords t) = false := rfl
theorem idle_in3 (t : Fin cfg0.N) : idle0 3 (grid0.coords t) = false := rfl
theorem flush4_of_last (t : Fin cfg0.N) (h : IsLast t) : (cfg0.win 4).flush t = true := (flush0_4 t).mpr ((isLast_iff t).mp h)
theorem flush4_of_not_last (t : Fin cfg0.N) (h : ¬ IsLast t) : (cfg0.win 4).flush t = false :=
  Bool.eq_false_iff.mpr fun hf => h ((isLast_iff t).mpr ((flush0_4 t).mp hf))

/-! ## The running buffers after each point -/

/-- The running maximum after point `k`. -/
def posA (c : Dev nD) : (k : ℕ) → k < cfg0.N → Vec F S512x1 .f32
  | 0, hk => stepPos (grid0.coords ⟨0, hk⟩) (xrow m ρ c ⟨0, hk⟩) (xcol m ρ c ⟨0, hk⟩) (lrow m ρ c ⟨0, hk⟩) (lcol m ρ c ⟨0, hk⟩) k0_pay4
  | k + 1, hk => stepPos (grid0.coords ⟨k + 1, hk⟩) (xrow m ρ c ⟨k + 1, hk⟩) (xcol m ρ c ⟨k + 1, hk⟩) (lrow m ρ c ⟨k + 1, hk⟩) (lcol m ρ c ⟨k + 1, hk⟩)
      (if (k + 1) % 8 = 0 then k0_pay4 else posA c k (Nat.lt_of_succ_lt hk))
/-- The running minimum after point `k`. -/
def negA (c : Dev nD) : (k : ℕ) → k < cfg0.N → Vec F S512x1 .f32
  | 0, hk => stepNeg (xrow m ρ c ⟨0, hk⟩) (xcol m ρ c ⟨0, hk⟩) (lrow m ρ c ⟨0, hk⟩) (lcol m ρ c ⟨0, hk⟩) k0_pay5
  | k + 1, hk => stepNeg (xrow m ρ c ⟨k + 1, hk⟩) (xcol m ρ c ⟨k + 1, hk⟩) (lrow m ρ c ⟨k + 1, hk⟩) (lcol m ρ c ⟨k + 1, hk⟩)
      (if (k + 1) % 8 = 0 then k0_pay5 else negA c k (Nat.lt_of_succ_lt hk))

theorem posA_first (c : Dev nD) (t : Fin cfg0.N) (h : t.val % 8 = 0) :
    posA m ρ c t.val t.isLt = stepPos (grid0.coords t) (xrow m ρ c t) (xcol m ρ c t) (lrow m ρ c t) (lcol m ρ c t) k0_pay4 := by
  obtain ⟨k, hk⟩ := t
  cases k with
  | zero => rfl
  | succ k => show stepPos _ _ _ _ _ (if (k + 1) % 8 = 0 then _ else _) = _; rw [if_pos h]
theorem negA_first (c : Dev nD) (t : Fin cfg0.N) (h : t.val % 8 = 0) :
    negA m ρ c t.val t.isLt = stepNeg (xrow m ρ c t) (xcol m ρ c t) (lrow m ρ c t) (lcol m ρ c t) k0_pay5 := by
  obtain ⟨k, hk⟩ := t
  cases k with
  | zero => rfl
  | succ k => show stepNeg _ _ _ _ (if (k + 1) % 8 = 0 then _ else _) = _; rw [if_pos h]
theorem posA_step (c : Dev nD) (t : Fin cfg0.N) (h : t.val % 8 ≠ 0) (hp : t.val - 1 < cfg0.N) :
    posA m ρ c t.val t.isLt = stepPos (grid0.coords t) (xrow m ρ c t) (xcol m ρ c t) (lrow m ρ c t) (lcol m ρ c t) (posA m ρ c (t.val - 1) hp) := by
  obtain ⟨k, hk⟩ := t
  cases k with
  | zero => exact absurd rfl h
  | succ k => show stepPos _ _ _ _ _ (if (k + 1) % 8 = 0 then _ else _) = _; rw [if_neg h]; rfl
theorem negA_step (c : Dev nD) (t : Fin cfg0.N) (h : t.val % 8 ≠ 0) (hp : t.val - 1 < cfg0.N) :
    negA m ρ c t.val t.isLt = stepNeg (xrow m ρ c t) (xcol m ρ c t) (lrow m ρ c t) (lcol m ρ c t) (negA m ρ c (t.val - 1) hp) := by
  obtain ⟨k, hk⟩ := t
  cases k with
  | zero => exact absurd rfl h
  | succ k => show stepNeg _ _ _ _ (if (k + 1) % 8 = 0 then _ else _) = _; rw [if_neg h]; rfl

/-- The block point `t` leaves in the output's staging buffer (read only at a row tile's last point). -/
def outAt (c : Dev nD) (t : Fin cfg0.N) : Vec F S512x1 .f32 := hingeOf (posA m ρ c t.val t.isLt) (negA m ρ c t.val t.isLt)

/-! ## The proof data -/

/-- The invariant before point `k` (k = 0 … 128). -/
def Φv (c : Dev nD) (k : Fin (cfg0.N + 1)) : sProp 𝕄 :=
  if h : k.val % 8 = 0 then iprop((∃ a, owns (c : Thread nD τ) posM fullShare a) ∗ ∃ b, owns (c : Thread nD τ) negM fullShare b)
  else iprop(owns (c : Thread nD τ) posM fullShare (posA m ρ c (k.val - 1) (by have := k.isLt; omega))
    ∗ owns (c : Thread nD τ) negM fullShare (negA m ρ c (k.val - 1) (by have := k.isLt; omega)))

def dats (_ : Fin 1) (c : Dev nD) : Dat τ (Elt F) Unit ℕ UC ℕ cfg0 c where
  A w := A m ρ c w
  after w t := match w with
    | ⟨0, _⟩ => xrow m ρ c t
    | ⟨1, _⟩ => xcol m ρ c t
    | ⟨2, _⟩ => lrow m ρ c t
    | ⟨3, _⟩ => lcol m ρ c t
    | ⟨4, _⟩ => outAt m ρ c t
  Φ k := Φv m ρ c k
  q w := match w with
    | ⟨0, _⟩ => fullShare.left
    | ⟨1, _⟩ => fullShare.right
    | _ => fullShare
  owed _ := 0

abbrev 𝒱₀ : Variants := Variants.none

theorem before_0 (c : Dev nD) (t : Fin cfg0.N) (d) : (dats m ρ 0 c).before 0 t d = xrow m ρ c t := by
  rw [(dats m ρ 0 c).before_in_eq_fetched 0 rfl (fun _ => rfl) (fun _ _ _ => rfl) (fun _ => rfl) t d]; rfl
theorem before_1 (c : Dev nD) (t : Fin cfg0.N) (d) : (dats m ρ 0 c).before 1 t d = xcol m ρ c t := by
  rw [(dats m ρ 0 c).before_in_eq_fetched 1 rfl (fun _ => rfl) (fun _ _ _ => rfl) (fun _ => rfl) t d]; rfl
theorem before_2 (c : Dev nD) (t : Fin cfg0.N) (d) : (dats m ρ 0 c).before 2 t d = lrow m ρ c t := by
  rw [(dats m ρ 0 c).before_in_eq_fetched 2 rfl (fun _ => rfl) (fun _ _ _ => rfl) (fun _ => rfl) t d]; rfl
theorem before_3 (c : Dev nD) (t : Fin cfg0.N) (d) : (dats m ρ 0 c).before 3 t d = lcol m ρ c t := by
  rw [(dats m ρ 0 c).before_in_eq_fetched 3 rfl (fun _ => rfl) (fun _ _ _ => rfl) (fun _ => rfl) t d]; rfl
theorem after_0 (c : Dev nD) (t : Fin cfg0.N) : (dats m ρ 0 c).after 0 t = xrow m ρ c t := rfl
theorem after_1 (c : Dev nD) (t : Fin cfg0.N) : (dats m ρ 0 c).after 1 t = xcol m ρ c t := rfl
theorem after_2 (c : Dev nD) (t : Fin cfg0.N) : (dats m ρ 0 c).after 2 t = lrow m ρ c t := rfl
theorem after_3 (c : Dev nD) (t : Fin cfg0.N) : (dats m ρ 0 c).after 3 t = lcol m ρ c t := rfl
theorem after_4 (c : Dev nD) (t : Fin cfg0.N) : (dats m ρ 0 c).after 4 t = outAt m ρ c t := rfl

theorem owesAt_intro (c : Dev nD) (t : Fin (cfg0.N + 1)) (W' : Waits sig Unit) :
    owes (c : Thread nD τ) 0 W' ⊢ ((dats m ρ 0 c).owesAt () t : sProp 𝕄) := by
  unfold Dat.owesAt Pipeline.owesWithin
  rw [show (dats m ρ 0 c).owed t = 0 from rfl]
  iintro HO; iexists W'; isplitr; · ipureintro; exact fun _ _ => Or.inl trivial
  iexact HO

/-- The invariant before and after point `t`, by the point's kind. -/
theorem Φ_pre_first (c : Dev nD) (t : Fin cfg0.N) (h : t.val % 8 = 0) :
    (dats m ρ 0 c).Φ t.castSucc = iprop((∃ a, owns (c : Thread nD τ) posM fullShare a) ∗ ∃ b, owns (c : Thread nD τ) negM fullShare b) := by
  show Φv m ρ c _ = _; unfold Φv; rw [dif_pos (by exact h)]
theorem Φ_pre_other (c : Dev nD) (t : Fin cfg0.N) (h : t.val % 8 ≠ 0) :
    (dats m ρ 0 c).Φ t.castSucc = iprop(owns (c : Thread nD τ) posM fullShare (posA m ρ c (t.val - 1) (by have := t.isLt; omega))
      ∗ owns (c : Thread nD τ) negM fullShare (negA m ρ c (t.val - 1) (by have := t.isLt; omega))) := by
  show Φv m ρ c _ = _; unfold Φv; rw [dif_neg (by exact h)]; rfl
theorem Φ_post_last (c : Dev nD) (t : Fin cfg0.N) (h : t.val % 8 = 7) :
    (dats m ρ 0 c).Φ t.succ = iprop((∃ a, owns (c : Thread nD τ) posM fullShare a) ∗ ∃ b, owns (c : Thread nD τ) negM fullShare b) := by
  show Φv m ρ c _ = _; unfold Φv; rw [dif_pos (by show (t.val + 1) % 8 = 0; omega)]
theorem Φ_post_other (c : Dev nD) (t : Fin cfg0.N) (h : t.val % 8 ≠ 7) :
    (dats m ρ 0 c).Φ t.succ = iprop(owns (c : Thread nD τ) posM fullShare (posA m ρ c t.val t.isLt) ∗ owns (c : Thread nD τ) negM fullShare (negA m ρ c t.val t.isLt)) := by
  show Φv m ρ c _ = _; unfold Φv; rw [dif_neg (by show ¬ (t.val + 1) % 8 = 0; omega)]; rfl

/-- The body obligation at every point, by the point's kind: that kind's run of the body between the invariant's two
    forms; the output's staging buffer passed through untouched except at a row tile's last point. -/
theorem body_obligation (c : Dev nD) : BodyObligation (dats (F := F) m ρ 0 c) (defs₀ (F := F)) 𝒱₀ () Set.univ := fun t => by
  rw [bigSep_W0, bigSep_W0]
  unfold Dat.owesAt Pipeline.owesWithin
  rw [show (dats m ρ 0 c).owed t.castSucc = 0 from rfl]
  by_cases hL : IsLast t
  · have h7 : t.val % 8 = 7 := (isLast_iff t).mp hL
    have hF : ¬ IsFirst t := fun h => by have := (isFirst_iff t).mp h; omega
    simp only [idle_in0, idle_in1, idle_in2, idle_in3, idle4_of_last t hL, flush4_of_last t hL, before_0, before_1, before_2, before_3,
      after_0, after_1, after_2, after_3, after_4]
    rw [Φ_pre_other m ρ c t (by omega), Φ_post_last m ρ c t h7,
      show outAt m ρ c t = hingeOf (posA m ρ c t.val t.isLt) (negA m ρ c t.val t.isLt) from rfl,
      posA_step m ρ c t (by omega) (by have := t.isLt; omega), negA_step m ρ c t (by omega) (by have := t.isLt; omega)]
    iintro ⟨⟨Ha, Hb⟩, ⟨%Wt, %hW, HO⟩, ⟨%d0, H0⟩, ⟨%d1, H1⟩, ⟨%d2, H2⟩, ⟨%d3, H3⟩, ⟨%d4, H4⟩⟩
    iapply (run_last c t (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
      (st0_4 t) (hstage0_4 ((cfg0.slots t 4).cast nbuf0_4)) (xrow m ρ c t) (xcol m ρ c t) (lrow m ρ c t) (lcol m ρ c t) _ _ hF hL)
    isplitl [H0 H1 H2 H3]
    · isplitl [H0]; · iexact H0
      isplitl [H1]; · iexact H1
      isplitl [H2]; · iexact H2
      iexact H3
    isplitl [H4]; · iexists _; iexact H4
    isplitl [Ha]; · iexact Ha
    isplitl [Hb]; · iexact Hb
    iintro ⟨⟨H0, H1, H2, H3⟩, H4, Ha, Hb⟩
    isplitl [Ha Hb]
    · isplitl [Ha]; · iexists _; iexact Ha
      iexists _; iexact Hb
    isplitl [HO]; · iapply (owesAt_intro m ρ c); iexact HO
    isplitl [H0]; · iexact H0
    isplitl [H1]; · iexact H1
    isplitl [H2]; · iexact H2
    isplitl [H3]; · iexact H3
    iexact H4
  · simp only [idle_in0, idle_in1, idle_in2, idle_in3, idle4_of_not_last t hL, flush4_of_not_last t hL, before_0, before_1, before_2, before_3,
      after_0, after_1, after_2, after_3]
    by_cases hF : IsFirst t
    · have h0 : t.val % 8 = 0 := (isFirst_iff t).mp hF
      rw [Φ_pre_first m ρ c t h0, Φ_post_other m ρ c t (by omega), posA_first m ρ c t h0, negA_first m ρ c t h0]
      iintro ⟨⟨Ha, Hb⟩, ⟨%Wt, %hW, HO⟩, ⟨%d0, H0⟩, ⟨%d1, H1⟩, ⟨%d2, H2⟩, ⟨%d3, H3⟩, H4⟩
      iapply (run_first c t (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3))
        (st0_4 t) (hstage0_4 ((cfg0.slots t 4).cast nbuf0_4)) (xrow m ρ c t) (xcol m ρ c t) (lrow m ρ c t) (lcol m ρ c t) hF hL _)
      isplitl [H0 H1 H2 H3]
      · isplitl [H0]; · iexact H0
        isplitl [H1]; · iexact H1
        isplitl [H2]; · iexact H2
        iexact H3
      isplitl [H4]; · iexact H4
      isplitl [Ha]; · iexact Ha
      isplitl [Hb]; · iexact Hb
      iintro ⟨⟨H0, H1, H2, H3⟩, H4, Ha, Hb⟩
      isplitl [Ha Hb]
      · isplitl [Ha] <;> iassumption
      isplitl [HO]; · iapply (owesAt_intro m ρ c); iexact HO
      isplitl [H0]; · iexact H0
      isplitl [H1]; · iexact H1
      isplitl [H2]; · iexact H2
      isplitl [H3]; · iexact H3
      iexact H4
    · have h1 : t.val % 8 ≠ 0 := fun h => hF ((isFirst_iff t).mpr h)
      have h2 : t.val % 8 ≠ 7 := fun h => hL ((isLast_iff t).mpr h)
      rw [Φ_pre_other m ρ c t h1, Φ_post_other m ρ c t h2, posA_step m ρ c t h1 (by have := t.isLt; omega), negA_step m ρ c t h1 (by have := t.isLt; omega)]
      iintro ⟨⟨Ha, Hb⟩, ⟨%Wt, %hW, HO⟩, ⟨%d0, H0⟩, ⟨%d1, H1⟩, ⟨%d2, H2⟩, ⟨%d3, H3⟩, H4⟩
      iapply (run_mid c t (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3))
        (st0_4 t) (hstage0_4 ((cfg0.slots t 4).cast nbuf0_4)) (xrow m ρ c t) (xcol m ρ c t) (lrow m ρ c t) (lcol m ρ c t) _ _ hF hL _)
      isplitl [H0 H1 H2 H3]
      · isplitl [H0]; · iexact H0
        isplitl [H1]; · iexact H1
        isplitl [H2]; · iexact H2
        iexact H3
      isplitl [H4]; · iexact H4
      isplitl [Ha]; · iexact Ha
      isplitl [Hb]; · iexact Hb
      iintro ⟨⟨H0, H1, H2, H3⟩, H4, Ha, Hb⟩
      isplitl [Ha Hb]
      · isplitl [Ha] <;> iassumption
      isplitl [HO]; · iapply (owesAt_intro m ρ c); iexact HO
      isplitl [H0]; · iexact H0
      isplitl [H1]; · iexact H1
      isplitl [H2]; · iexact H2
      isplitl [H3]; · iexact H3
      iexact H4

end Cert.Triplet.KI

end
-- ==== Proof.RunIdeal.lean ====
/-
  The launch: every weakly fair execution of @main terminates, and what the final memory holds.
  @main is two reshapes of the labels, the kernel region, and four host operations on the region's result (its sum
  and the quotient by the row count). It is run as three segments. Between segments the thread holds the core's
  nine HBM buffers whole at a valuation: at launch the launch contents, after the reshapes their results, after the
  region the same with the result array at what the pipeline wrote, at the end the tail's results over that.
  At the region's entry the embeddings' buffer is split along its share into the two halves the two windows that
  read it hold; at the exit the halves, still at the entry contents, are joined again.
-/
import proofs.«102776_j52183852646786_1_alg».proof.Proof.DataIdeal

noncomputable section

namespace Cert.Triplet.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

variable (m : (ℓ : Loc nD τ sig) → Buf (Elt F) ℓ) (ρ : Dev nD → PrngReg)

/-! ## The core's HBM buffers -/

/-- The TensorCore's references that no region scopes, as device buffers: @main's nine arrays. -/
def hbmRefs : Finset (DevRef τ sig) := (StableHlo.tcRefs τ sig).filter fun b => ¬ b.isScoped

omit [FloatOps F] in
/-- Holding them at a valuation is holding the launch's unscoped buffers at it. -/
theorem held_hbm (c : Dev nD) (W : Valuation τ sig (Elt F)) :
    (StableHlo.held (c : Thread nD τ) hbmRefs W : sProp 𝕄) = unscopedBufs c (fun b => W b) := by
  unfold StableHlo.held hbmRefs StableHlo.tcRefs unscopedBufs
  rw [Finset.filter_map, bigSep_map]
  rfl

omit [FloatOps F] in
/-- A host operation over TensorCore references stays within them. -/
theorem bufs_sub_hbm (op : HloOp τ sig (Elt F)) (h : op.bufs ⊆ StableHlo.tcRefs τ sig) : op.bufs ⊆ hbmRefs := fun b hb =>
  Finset.mem_filter.mpr ⟨h hb, by rw [op.no_scoped b hb]; exact Bool.false_ne_true⟩

/-- One HBM buffer whole at given contents. -/
abbrev pt (c : Dev nD) (b : Ref sig .tc) (f : Buf (Elt F) ((c : Thread nD τ).loc b)) : sProp 𝕄 := ((c : Thread nD τ).loc b) ↦{fullShare} f

omit [FloatOps F] in
/-- The nine, one by one. -/
theorem unscopedBufs_nine (c : Dev nD) (W : (b : Ref sig .tc) → Buf (Elt F) ((c : Thread nD τ).loc b)) :
    (unscopedBufs c W : sProp 𝕄)
      = iprop(pt c main_arg0 (W main_arg0) ∗ pt c main_arg1 (W main_arg1) ∗ pt c main_v0 (W main_v0) ∗ pt c main_v1 (W main_v1) ∗ pt c main_v2 (W main_v2)
          ∗ pt c main_cst (W main_cst) ∗ pt c main_v3 (W main_v3) ∗ pt c main_cst_0 (W main_cst_0) ∗ pt c main_v4 (W main_v4)) := by
  unfold unscopedBufs
  exact bigSep_eq_bigSepL_of_eq [main_arg0, main_arg1, main_v0, main_v1, main_v2, main_cst, main_v3, main_cst_0, main_v4] (by decide) (by decide) _

/-! ## The valuations between the segments -/

open Classical in
/-- The buffers when the region is left: the result array at what the pipeline wrote, the rest as the region was entered. -/
def Vr (c : Dev nD) : Valuation τ sig (Elt F) :=
  Function.update (StableHlo.after hostOps0 (V₀ m ρ c)) (Proc.devRef .tc main_v2) ((dats m ρ 0 c).arrAt 4 cfg0.N)

theorem Vr_out (c : Dev nD) : Vr m ρ c (Proc.devRef .tc main_v2) = (dats m ρ 0 c).arrAt 4 cfg0.N := by
  unfold Vr; exact Function.update_self ..
theorem Vr_other (c : Dev nD) (b : Ref sig .tc) (h : b ≠ main_v2) : Vr m ρ c (Proc.devRef .tc b) = V m ρ c b := by
  unfold Vr; exact Function.update_of_ne (StableHlo.devRef_ne_of_ne h) ..

/-- The buffers at the end: the four tail operations have run. -/
abbrev Vend (c : Dev nD) : Valuation τ sig (Elt F) := StableHlo.after hostOps1 (Vr m ρ c)

/-! ## The segments -/

/-- What rides beside the buffers: the core owes nothing. -/
abbrev Ow (c : Dev nD) : sProp 𝕄 := iprop(∃ W, owes (c : Thread nD τ) (0 : CellTallies nD τ sig Unit) W)
abbrev L : GSem nD τ sig → Finset Unit := fun _ => ∅
abbrev lv : GSem nD τ sig → Unit → ℕ := fun _ _ => 0
abbrev adm : (p : Fin 1) → (pcfgs (F := F) p).Adm := fun p => (cfgs p).toPCfg_adm

/-- The two reshapes. -/
def seg0 : Pipeline.HostSeg (Name := ℕ) (U := UC) (pcfgs (F := F)) defs₀ 𝒱₀ L lv :=
  Pipeline.HostSeg.ofOps _ _ _ _ _ hbmRefs hostOps0 (fun op h => bufs_sub_hbm op ((List.forall_iff_forall_mem.mp hostOps0_sub) op h))
    (by intro op h; simp only [List.mem_cons, List.mem_nil_iff, or_false] at h; rcases h with rfl | rfl <;> rfl) (V₀ m ρ) Ow

/-- The sum and the quotient. -/
def seg1 : Pipeline.HostSeg (Name := ℕ) (U := UC) (pcfgs (F := F)) defs₀ 𝒱₀ L lv :=
  Pipeline.HostSeg.ofOps _ _ _ _ _ hbmRefs hostOps1 (fun op h => bufs_sub_hbm op ((List.forall_iff_forall_mem.mp hostOps1_sub) op h))
    (by intro op h; simp only [List.mem_cons, List.mem_nil_iff, or_false] at h; rcases h with rfl | rfl | rfl | rfl <;> rfl) (Vr m ρ) Ow

/-- The five HBM buffers no window of the region reads or writes. -/
abbrev rest5 (c : Dev nD) : sProp 𝕄 :=
  iprop(pt c main_arg1 (V m ρ c main_arg1) ∗ pt c main_cst (V m ρ c main_cst) ∗ pt c main_v3 (V m ρ c main_v3) ∗ pt c main_cst_0 (V m ρ c main_cst_0) ∗ pt c main_v4 (V m ρ c main_v4))

theorem share_in0 (c : Dev nD) : (dats m ρ 0 c).share 0 = fullShare.left := rfl
theorem share_in1 (c : Dev nD) : (dats m ρ 0 c).share 1 = fullShare.right := rfl
theorem share_in2 (c : Dev nD) : (dats m ρ 0 c).share 2 = fullShare := rfl
theorem share_in3 (c : Dev nD) : (dats m ρ 0 c).share 3 = fullShare := rfl
theorem share_out (c : Dev nD) : (dats m ρ 0 c).share 4 = fullShare := rfl

/-- The windows' arrays at contents `G`, one by one: the embeddings' two halves, the two label arrays, the result. -/
theorem arrays_five (c : Dev nD) (G : (w : Fin cfg0.W) → Buf (Elt F) ((cfg0.win w).arr.view.loc (c : Thread nD τ))) :
    ((dats m ρ 0 c).arrays G : sProp 𝕄)
      = iprop((((c : Thread nD τ).loc main_arg0) ↦{fullShare.left} G 0) ∗ (((c : Thread nD τ).loc main_arg0) ↦{fullShare.right} G 1)
          ∗ pt c main_v0 (G 2) ∗ pt c main_v1 (G 3) ∗ pt c main_v2 (G 4)) := by
  unfold Dat.arrays
  rw [bigSep_W0]
  simp only [(arr_whole0 0).set_eq_univ, (arr_whole0 1).set_eq_univ, (arr_whole0 2).set_eq_univ, (arr_whole0 3).set_eq_univ, (arr_whole0 4).set_eq_univ,
    share_in0, share_in1, share_in2, share_in3, share_out]

-- `iapply` of a library lemma stated over `cfgs p` at the pinned configuration unifies only when unification may
-- unfold plain definitions in a metavariable's type
set_option backward.isDefEq.respectTransparency.types false in
/-- The region. -/
def reg0 : Pipeline.RegionSeg (pcfgs (F := F)) adm (dats m ρ) () defs₀ 𝒱₀ L lv 0 where
  win := winFacts₀0
  block_pos := block_pos0
  stage_whole := stage_whole0
  K := PEmpty
  osem := fun k => k.elim
  ho := Pipeline.OwnSemFacts.none _
  hbody c := (body_obligation m ρ c).loose
  hwaits := Pipeline.hwaits_of_owed_zero _ _ _ _ L lv 0 fun _ _ => rfl
  pre c := iprop(StableHlo.held (c : Thread nD τ) hbmRefs (StableHlo.after hostOps0 (V₀ m ρ c)) ∗ Ow c)
  post c := iprop(StableHlo.held (c : Thread nD τ) hbmRefs (Vr m ρ c) ∗ Ow c)
  X _ := iprop(emp)
  Y _ := iprop(emp)
  Z c := rest5 m ρ c
  hentry c := by
    rw [held_hbm, unscopedBufs_nine, arrays_five]
    iintro ⟨⟨⟨Ha0, Ha1, Hv0, Hv1, Hv2, Hc, Hv3, Hc0, Hv4⟩, HO⟩, -, -⟩
    ihave Hs := (pointsTo_share (PosShare.mem_left_op_right fullShare)).1 $$ Ha0
    icases Hs with ⟨Hl, Hr⟩
    imodintro
    isplitl [Hl Hr Hv0 Hv1 Hv2]
    · isplitl [Hl]; · iexact Hl
      isplitl [Hr]; · iexact Hr
      isplitl [Hv0]; · iexact Hv0
      isplitl [Hv1]; · iexact Hv1
      iexact Hv2
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Ha1]; · iexact Ha1
    isplitl [Hc]; · iexact Hc
    isplitl [Hv3]; · iexact Hv3
    isplitl [Hc0]; · iexact Hc0
    iexact Hv4
  hin c := by
    rw [show (dats m ρ 0 c).Φ 0 = Φv m ρ c 0 from rfl, scopedRest0_eq]
    unfold Φv; rw [dif_pos (by decide)]
    simp only [owns_whole_eq]
    iintro ⟨-, -, ⟨%f, Hf⟩, ⟨%g, Hg⟩⟩
    isplitl [Hf]
    · iexists f; iexists f; isplitr; (· ipureintro; rfl); iexact Hf
    · iexists g; iexists g; isplitr; (· ipureintro; rfl); iexact Hg
  hout c := by
    rw [show (dats m ρ 0 c).Φ (Fin.last cfg0.N) = Φv m ρ c (Fin.last cfg0.N) from rfl, scopedRest0_eq, Pipeline.ownSems0_none]
    unfold Φv; rw [dif_pos (by decide)]
    simp only [owns_whole_eq]
    iintro ⟨⟨%a, %f, %hf, Hf⟩, ⟨%b, %g, %hg, Hg⟩⟩
    isplitr; · iempintro
    isplitr; · iempintro
    isplitl [Hf]; · iexists f; iexact Hf
    iexists g; iexact Hg
  hexit c := by
    rw [held_hbm, unscopedBufs_nine, arrays_five]
    simp only [Vr_out, Vr_other m ρ c main_arg0 (by decide), Vr_other m ρ c main_arg1 (by decide), Vr_other m ρ c main_v0 (by decide),
      Vr_other m ρ c main_v1 (by decide), Vr_other m ρ c main_cst (by decide), Vr_other m ρ c main_v3 (by decide),
      Vr_other m ρ c main_cst_0 (by decide), Vr_other m ρ c main_v4 (by decide),
      (dats m ρ 0 c).arrAt_in 0 rfl, (dats m ρ 0 c).arrAt_in 1 rfl, (dats m ρ 0 c).arrAt_in 2 rfl, (dats m ρ 0 c).arrAt_in 3 rfl]
    iintro ⟨⟨Hl, Hr, Hv0, Hv1, Hv2⟩, HO, -, ⟨Ha1, Hc, Hv3, Hc0, Hv4⟩⟩
    ihave Ha0 := (pointsTo_share (PosShare.mem_left_op_right fullShare)).2 $$ [Hl Hr]
    · isplitl [Hl]; · iexact Hl
      iexact Hr
    imodintro
    isplitr [HO]
    · isplitl [Ha0]; · iexact Ha0
      isplitl [Ha1]; · iexact Ha1
      isplitl [Hv0]; · iexact Hv0
      isplitl [Hv1]; · iexact Hv1
      isplitl [Hv2]; · iexact Hv2
      isplitl [Hc]; · iexact Hc
      isplitl [Hv3]; · iexact Hv3
      isplitl [Hc0]; · iexact Hc0
      iexact Hv4
    · unfold Pipeline.Dat.owesAt Pipeline.owesWithin
      icases HO with ⟨%W, -, HO⟩; iexists W; iexact HO

/-- @main as the list of the three. -/
abbrev segs : List (Pipeline.Seg (pcfgs (F := F)) adm (dats m ρ) () defs₀ 𝒱₀ L lv) := [.host (seg0 m ρ), .region (reg0 m ρ), .host (seg1 m ρ)]

/-- The launch element: the pipeline library's at the staging cells; no counter. -/
def u₀ : UC := (initOf (Pipeline.cells cfgs cellOf_inj) (Pipeline.launchToks cfgs cellOf_inj), 1)

omit [FloatOps F] in
/-- Nothing, on every core, is nothing. -/
theorem emp_all : (BI.emp : sProp 𝕄) ⊢ bigSep Finset.univ (fun _ : Dev nD => (BI.emp : sProp 𝕄)) :=
  Entails.of_eq (BI.bigSep_emp_const _).symm

/-- What is read of the final memory: all nine HBM buffers at the end valuation. -/
def QC : PUnit × MemSt nD τ sig (Elt F) → Prop := fun r =>
  ∀ (c : Dev nD) (b : Ref sig .tc), b.isScoped = false → r.2.mem ((c : Thread nD τ).loc b) = Vend m ρ c (Proc.devRef .tc b)

-- the launch theorem's implicit arguments are found by unifying its conclusion with this one, which takes unfolding
-- plain definitions in a metavariable's type
set_option backward.isDefEq.respectTransparency.types false in
/-- From any memory with every semaphore at zero: every weakly fair execution of @main on the TensorCores
    terminates, nothing faulting, and the final memory holds the nine HBM buffers at the end valuation. -/
theorem run_main : θ_run defs (onTc (τ := τ) (main (F := F))) (s₀ m ρ) (QC m ρ) :=
  Pipeline.θ_run_regions_kit (pcfgs (F := F)) adm (dats m ρ) () cellOf_inj EP defs₀ 𝒱₀ L lv m ρ main (segs m ρ)
    (fun c Q => by rw [main_segs adm (dats m ρ) () 𝒱₀ L lv (seg0 m ρ) (seg1 m ρ) (reg0 m ρ) rfl rfl c])
    (by simp only [Pipeline.Seg.pipes_host, Pipeline.Seg.pipes_region, Pipeline.Seg.pipes_nil]; decide)
    (O₀ := 0) (hL := fun _ _ => rfl) (G := fun _ => (BI.emp : sProp 𝕄)) (u₀ := u₀)
    (hu₀ := by
      unfold u₀
      refine (ownU_pair _ _).trans ?_
      iintro ⟨HP, -⟩
      imodintro
      isplitl [HP]; · iexact HP
      iapply emp_all; iempintro)
    (T₀ := fun c => iprop(StableHlo.held (c : Thread nD τ) hbmRefs (V₀ m ρ c) ∗ Ow c))
    (Tₙ := fun c => StableHlo.held (c : Thread nD τ) hbmRefs (Vend m ρ c))
    (hch := ⟨fun _ => .rfl, fun _ => .rfl, fun _ => .rfl, fun _ => .rfl⟩)
    (hinit := by
      refine Pipeline.initEach L lv fun c => ?_
      rw [held_hbm]
      iintro ⟨⟨Hb, -, HO, -, -, -⟩, -⟩
      imodintro
      isplitl [Hb]; · iexact Hb
      iexists ∅; iexact HO)
    (QY := fun c s => ∀ b : Ref sig .tc, b.isScoped = false → s.mem ((c : Thread nD τ).loc b) = Vend m ρ c (Proc.devRef .tc b))
    (hfin := fun c s' => by
      rw [held_hbm]; unfold unscopedBufs
      iintro ⟨Hb, HSI⟩
      ihave Hr := (pointsTo_read_all (Finset.univ.filter fun b : Ref sig .tc => ¬ b.isScoped) (fun b => (c : Thread nD τ).loc b)
        (fun b => Vend m ρ c (Proc.devRef .tc b)) s') $$ [Hb HSI]
      · isplitl [Hb] <;> iassumption
      icases Hr with ⟨%h, HSI⟩
      imodintro
      isplitr
      · ipureintro; exact fun b hb => h b (Finset.mem_filter.mpr ⟨Finset.mem_univ _, by rw [hb]; exact Bool.false_ne_true⟩)
      iexact HSI)
    (hQ := fun _ h c => h c)

/-! ## The arguments at the end -/

/-- No operation of @main writes the embeddings: the end valuation has them as launched. -/
theorem Vend_arg0 (c : Dev nD) : Vend m ρ c (Proc.devRef .tc main_arg0) = m ((c : Thread nD τ).loc main_arg0) := by
  show StableHlo.after hostOps1 (Vr m ρ c) (Proc.devRef .tc main_arg0) = _
  after_results
  rw [Vr_other m ρ c main_arg0 (by decide)]
  show StableHlo.after hostOps0 (V₀ m ρ c) (Proc.devRef .tc main_arg0) = _
  after_results
/-- Nor the labels. -/
theorem Vend_arg1 (c : Dev nD) : Vend m ρ c (Proc.devRef .tc main_arg1) = m ((c : Thread nD τ).loc main_arg1) := by
  show StableHlo.after hostOps1 (Vr m ρ c) (Proc.devRef .tc main_arg1) = _
  after_results
  rw [Vr_other m ρ c main_arg1 (by decide)]
  show StableHlo.after hostOps0 (V₀ m ρ c) (Proc.devRef .tc main_arg1) = _
  after_results

/-- The result at the end: the sum of the region's result array from the zero constant, divided by the row count. -/
theorem Vend_result (c : Dev nD) :
    Vend m ρ c (Proc.devRef .tc main_v4)
      = Host.divf (Host.reduceAdd ((dats m ρ 0 c).arrAt 4 cfg0.N) (constant S_ .f32 0x00000000#32) reducesTo_S8192x1_S_d0_1 h_S_) (constant S_ .f32 0x46000000#32) := by
  show StableHlo.after hostOps1 (Vr m ρ c) (Proc.devRef .tc main_v4) = _
  after_results
  rw [Vr_out]

/-- The frame: @main runs to the end and both arguments end as launched. -/
theorem frame_run : θ_run defs (onTc (τ := τ) (main (F := F))) ⟨m, fun _ => 0, ρ⟩ (fun r => ∀ c : Dev nD,
    r.2.mem ((c : Thread nD τ).loc main_arg0) = m ((c : Thread nD τ).loc main_arg0)
    ∧ r.2.mem ((c : Thread nD τ).loc main_arg1) = m ((c : Thread nD τ).loc main_arg1)) :=
  (θ_run defs _ _).mono (fun _ h c => ⟨(h c main_arg0 rfl).trans (Vend_arg0 m ρ c), (h c main_arg1 rfl).trans (Vend_arg1 m ρ c)⟩) (run_main m ρ)

end Cert.Triplet.KI

end
-- ==== Proof.Algebra.lean ====
/-
  Pure order and finite-sum facts over the extended reals (a complete linear order).

  The 8192 columns are cut into eight tiles of 1024. A running maximum (minimum) that takes in one tile's fold at a
  time equals, after the last tile, the fold over all 8192 columns: a fold of max (min) is characterised by its upper
  (lower) bounds, and a column below (j+1)·1024 is either below j·1024 or column q of tile j for a unique q.
  Likewise the 8192 rows are cut into sixteen row-tiles of 512, and a sum over the indices of an 8192×1 array is the
  sum over its rows.
-/
import Idealize.ShloMosaic.PureOps.Ideal
import Idealize.ShloMosaic.Lib.ValueIdx
import Mathlib.Data.Finset.Fold
import Mathlib.Data.EReal.Basic
import Mathlib.Algebra.BigOperators.Fin

noncomputable section

open scoped BigOperators

namespace Cert.Triplet.Alg

open Idealize.ShloMosaic

/-- column q of tile j, and row p of row-tile i -/
def col (j : Fin 8) (q : Fin 1024) : Fin 8192 := ⟨j.val * 1024 + q.val, by have := j.isLt; have := q.isLt; omega⟩
def row (i : Fin 16) (p : Fin 512) : Fin 8192 := ⟨i.val * 512 + p.val, by have := i.isLt; have := p.isLt; omega⟩
/-- the columns before position n -/
def below (n : ℕ) : Finset (Fin 8192) := Finset.univ.filter fun c => c.val < n

/-- membership in the columns before position n -/
theorem mem_below (n : ℕ) (c : Fin 8192) : c ∈ below n ↔ c.val < n := by simp [below]

/-- all 8192 columns are before position 8192 -/
theorem below_all : below 8192 = Finset.univ := by
  ext c; simp [mem_below, c.isLt]

/-- a property holds on the columns before (j+1)·1024 iff it holds before j·1024 and on every column of tile j -/
theorem forall_below_succ (P : Fin 8192 → Prop) (j : Fin 8) :
    (∀ x ∈ below ((j.val + 1) * 1024), P x) ↔ (∀ x ∈ below (j.val * 1024), P x) ∧ ∀ q : Fin 1024, P (col j q) := by
  constructor
  · intro h
    refine ⟨fun x hx => h x ((mem_below _ _).2 ?_), fun q => h _ ((mem_below _ _).2 ?_)⟩
    · have := (mem_below _ _).1 hx; omega
    · have := q.isLt; simp only [col]; omega
  · rintro ⟨h1, h2⟩ x hx
    have hx' := (mem_below _ _).1 hx
    by_cases hlt : x.val < j.val * 1024
    · exact h1 x ((mem_below _ _).2 hlt)
    · have hq : x.val - j.val * 1024 < 1024 := by omega
      have hxe : x = col j ⟨x.val - j.val * 1024, hq⟩ := Fin.ext (by simp only [col]; omega)
      rw [hxe]; exact h2 _

/-- a property holds on the columns before 1024 iff it holds on every column of tile 0 -/
theorem forall_below_first (P : Fin 8192 → Prop) :
    (∀ x ∈ below 1024, P x) ↔ ∀ q : Fin 1024, P (col 0 q) := by
  have h := forall_below_succ P 0
  have h0 : ∀ x ∈ below ((0 : Fin 8).val * 1024), P x := by
    intro x hx; have := (mem_below _ _).1 hx; simp at this
  have e : ((0 : Fin 8).val + 1) * 1024 = 1024 := by simp
  rw [e] at h
  rw [h]; exact ⟨fun a => a.2, fun a => ⟨h0, a⟩⟩

theorem max_first (f : Fin 8192 → EReal) (b z : EReal) :
    max z ((Finset.univ : Finset (Fin 1024)).fold max b (fun q => f (col 0 q))) = max z ((below 1024).fold max b f) := by
  refine eq_of_forall_ge_iff fun c => ?_
  rw [max_le_iff, max_le_iff, Finset.fold_max_le, Finset.fold_max_le, forall_below_first (fun x => f x ≤ c)]
  simp

theorem max_step (f : Fin 8192 → EReal) (b z : EReal) (j : Fin 8) (hj : 0 < j.val) :
    max (max z ((below (j.val * 1024)).fold max b f)) ((Finset.univ : Finset (Fin 1024)).fold max b (fun q => f (col j q)))
      = max z ((below ((j.val + 1) * 1024)).fold max b f) := by
  refine eq_of_forall_ge_iff fun c => ?_
  rw [max_le_iff, max_le_iff, max_le_iff, Finset.fold_max_le, Finset.fold_max_le, Finset.fold_max_le,
    forall_below_succ (fun x => f x ≤ c) j]
  simp only [Finset.mem_univ, forall_true_left]
  tauto

theorem max_total (f : Fin 8192 → EReal) (b z : EReal) (h : ∃ c, z ≤ f c) :
    max z ((below 8192).fold max b f) = (Finset.univ : Finset (Fin 8192)).fold max b f := by
  obtain ⟨c, hc⟩ := h
  rw [below_all]
  exact max_eq_right ((Finset.le_fold_max z).2 (Or.inr ⟨c, Finset.mem_univ c, hc⟩))

theorem min_first (f : Fin 8192 → EReal) (b : EReal) :
    min b ((Finset.univ : Finset (Fin 1024)).fold min b (fun q => f (col 0 q))) = (below 1024).fold min b f := by
  refine eq_of_forall_le_iff fun c => ?_
  rw [le_min_iff, Finset.le_fold_min, Finset.le_fold_min, forall_below_first (fun x => c ≤ f x)]
  simp

theorem min_step (f : Fin 8192 → EReal) (b : EReal) (j : Fin 8) (hj : 0 < j.val) :
    min ((below (j.val * 1024)).fold min b f) ((Finset.univ : Finset (Fin 1024)).fold min b (fun q => f (col j q)))
      = (below ((j.val + 1) * 1024)).fold min b f := by
  refine eq_of_forall_le_iff fun c => ?_
  rw [le_min_iff, Finset.le_fold_min, Finset.le_fold_min, Finset.le_fold_min,
    forall_below_succ (fun x => c ≤ f x) j]
  simp only [Finset.mem_univ, forall_true_left]
  tauto

theorem min_total (f : Fin 8192 → EReal) (b : EReal) :
    (below 8192).fold min b f = (Finset.univ : Finset (Fin 8192)).fold min b f := by
  rw [below_all]

/-- a sum over the indices of an 8192×1 array is the sum over its rows -/
theorem sum_rows (g : (⟨2, ![8192, 1]⟩ : Shape).Idx → EReal) :
    ∑ i, g i = ∑ r : Fin 8192, g (Idealize.ShloMosaic.ValueIdx.ix2 r (0 : Fin 1)) := by
  rw [Idealize.ShloMosaic.ValueIdx.sum_idx2]
  refine Finset.sum_congr rfl fun r _ => ?_
  rw [Fin.sum_univ_one]

/-- every row is row p of a unique row-tile i, every column column q of a unique tile j -/
theorem row_surj (r : Fin 8192) : ∃ (i : Fin 16) (p : Fin 512), r = row i p := by
  have hr := r.isLt
  refine ⟨⟨r.val / 512, by omega⟩, ⟨r.val % 512, by omega⟩, Fin.ext ?_⟩
  simp only [row]; omega

theorem row_col_eq_iff (i : Fin 16) (p : Fin 512) (j : Fin 8) (q : Fin 1024) :
    row i p = col j q ↔ i.val * 512 + p.val = j.val * 1024 + q.val := by
  simp only [row, col, Fin.ext_iff]

end Cert.Triplet.Alg

end
-- ==== Proof.BlocksIdeal.lean ====
/-
  The kernel's blocks as parts of the arrays, and the output array after the run.

  Grid point t has row tile t / 8 and column tile t % 8. On each axis a block's element sits in its array at the block
  index times the block's size plus the coordinate inside the block; the printed index maps give the block indices
  (t / 8, 0) for the row blocks and the output block, (t % 8, 0) for the embeddings' column block and (0, t % 8) for the
  labels' column block. The embeddings reach the region unchanged; the labels reach it as a column and as a row, each
  holding label r at position r. So the four input blocks read rows (t / 8)·512 + p and (t % 8)·1024 + q of the
  arguments. The output blocks written back at the points with t % 8 = 7 tile the 8192 rows: row r lies in the block
  of the point (r / 512)·8 + 7, so if each such block holds the rows' hinges the array ends holding every row's hinge.
-/
import proofs.«102776_j52183852646786_1_alg».proof.Proof.DataIdeal
import proofs.«102776_j52183852646786_1_alg».proof.Proof.Spec
import proofs.«102776_j52183852646786_1_alg».proof.Proof.Algebra
import Idealize.ShloMosaic.Lib.Pipeline.Value
import Idealize.ShloMosaic.Lib.ValueIdx
import Idealize.ShloMosaic.Lib.StableHlo.Run

noncomputable section

namespace Cert.Triplet.KV

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Triplet Cert.Triplet.KI Idealize.ShloMosaic.ValueIdx

variable (m : (ℓ : Loc nD τ sig) → Buf (Elt Ideal) ℓ) (ρ : Dev nD → PrngReg)

/-- The row tile and the column tile of grid point t. -/
def ti (t : Fin cfg0.N) : Fin 16 := ⟨t.val / 8, by have := t.isLt; have h : cfg0.N = 128 := N_0; omega⟩
def tj (t : Fin cfg0.N) : Fin 8 := ⟨t.val % 8, by omega⟩

/-- The printed index maps over the grid: each window's block index on each axis, and the point's two coordinates. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = t.val / 8 ∧ win0_4.index t (1 : Fin 2) = 0
    ∧ ((grid0.coords t) 0).val = t.val / 8 ∧ ((grid0.coords t) 1).val = t.val % 8 :=
  (by decide +kernel : ∀ t : Fin grid0.N, _)

theorem coords0 (t : Fin cfg0.N) : ((grid0.coords t) 0).val = t.val / 8 := (idx_facts t).2.2.2.2.2.2.2.2.2.2.1
theorem coords1 (t : Fin cfg0.N) : ((grid0.coords t) 1).val = t.val % 8 := (idx_facts t).2.2.2.2.2.2.2.2.2.2.2

/-- The embeddings as the region finds them: no host operation before it writes them. -/
theorem V_arg0 (c : Dev nD) : V m ρ c main_arg0 = m ((c : Thread nD τ).loc main_arg0) := by
  show StableHlo.after hostOps0 (V₀ m ρ c) (Proc.devRef .tc main_arg0) = _
  after_results

/-- The labels' two reshapes as the region finds them. -/
theorem V_v0 (c : Dev nD) : (V m ρ c main_v0 : S8192x1.Idx → BitVec 32)
    = shapeCast S8192x1 (m ((c : Thread nD τ).loc main_arg1) : S8192.Idx → BitVec 32) shapeCasts_S8192_S8192x1 := by
  show StableHlo.after hostOps0 (V₀ m ρ c) (Proc.devRef .tc main_v0) = _
  after_results
  rfl
theorem V_v1 (c : Dev nD) : (V m ρ c main_v1 : S1x8192.Idx → BitVec 32)
    = shapeCast S1x8192 (m ((c : Thread nD τ).loc main_arg1) : S8192.Idx → BitVec 32) shapeCasts_S8192_S1x8192 := by
  show StableHlo.after hostOps0 (V₀ m ρ c) (Proc.devRef .tc main_v1) = _
  after_results
  rfl

/-- The column of labels at row r, and the row of labels at column r, are label r. -/
theorem V_v0_apply (c : Dev nD) (r : Fin 8192) :
    (V m ρ c main_v0 : S8192x1.Idx → BitVec 32) (ix2 r (0 : Fin 1)) = m ((c : Thread nD τ).loc main_arg1) (ix1 r) := by
  rw [V_v0]
  exact shapeCast_apply _ _ _ (ix1 r) (by
    rw [Shape.rowMajor_val_one, Shape.rowMajor_val_two]; show r.val = r.val * 1 + 0; omega)
theorem V_v1_apply (c : Dev nD) (r : Fin 8192) :
    (V m ρ c main_v1 : S1x8192.Idx → BitVec 32) (ix2 (0 : Fin 1) r) = m ((c : Thread nD τ).loc main_arg1) (ix1 r) := by
  rw [V_v1]
  exact shapeCast_apply _ _ _ (ix1 r) (by
    rw [Shape.rowMajor_val_one, Shape.rowMajor_val_two]; show r.val = 0 * 8192 + r.val; omega)

/-- The embeddings' row block at point t holds rows (t / 8)·512 + p; -/
theorem xrow_apply (c : Dev nD) (t : Fin cfg0.N) (p : Fin 512) (k : Fin 128) :
    xrow m ρ c t (ix2 p k) = m ((c : Thread nD τ).loc main_arg0) (ix2 (Alg.row (ti t) p) k) := by
  obtain ⟨e0, e1, -⟩ := idx_facts t
  show V m ρ c main_arg0 (((cfg0.win 0).blk t).view.emb (ix2 p k)) = _
  rw [V_arg0]
  refine congrArg _ (funext fun a => Fin.ext ?_)
  match a with
  | ⟨0, _⟩ =>
    show win0_0.index t (0 : Fin 2) * 512 + 1 * p.val = (ti t).val * 512 + p.val
    rw [e0]; show t.val / 8 * 512 + 1 * p.val = t.val / 8 * 512 + p.val; omega
  | ⟨1, _⟩ =>
    show win0_0.index t (1 : Fin 2) * 128 + 1 * k.val = k.val
    rw [e1]; omega

/-- its column block holds rows (t % 8)·1024 + q. -/
theorem xcol_apply (c : Dev nD) (t : Fin cfg0.N) (q : Fin 1024) (k : Fin 128) :
    xcol m ρ c t (ix2 q k) = m ((c : Thread nD τ).loc main_arg0) (ix2 (Alg.col (tj t) q) k) := by
  obtain ⟨-, -, e0, e1, -⟩ := idx_facts t
  show V m ρ c main_arg0 (((cfg0.win 1).blk t).view.emb (ix2 q k)) = _
  rw [V_arg0]
  refine congrArg _ (funext fun a => Fin.ext ?_)
  match a with
  | ⟨0, _⟩ =>
    show win0_1.index t (0 : Fin 2) * 1024 + 1 * q.val = (tj t).val * 1024 + q.val
    rw [e0]; show t.val % 8 * 1024 + 1 * q.val = t.val % 8 * 1024 + q.val; omega
  | ⟨1, _⟩ =>
    show win0_1.index t (1 : Fin 2) * 128 + 1 * k.val = k.val
    rw [e1]; omega

/-- The labels' row block at point t holds the labels of rows (t / 8)·512 + p; -/
theorem lrow_apply (c : Dev nD) (t : Fin cfg0.N) (p : Fin 512) :
    lrow m ρ c t (ix2 p 0) = m ((c : Thread nD τ).loc main_arg1) (ix1 (Alg.row (ti t) p)) := by
  obtain ⟨-, -, -, -, e0, e1, -⟩ := idx_facts t
  show V m ρ c main_v0 (((cfg0.win 2).blk t).view.emb (ix2 p (0 : Fin 1))) = _
  have e : ((cfg0.win 2).blk t).view.emb (ix2 p (0 : Fin 1)) = ix2 (Alg.row (ti t) p) (0 : Fin 1) :=
    funext fun a => Fin.ext (by
      match a with
      | ⟨0, _⟩ =>
        show win0_2.index t (0 : Fin 2) * 512 + 1 * p.val = (ti t).val * 512 + p.val
        rw [e0]; show t.val / 8 * 512 + 1 * p.val = t.val / 8 * 512 + p.val; omega
      | ⟨1, _⟩ =>
        show win0_2.index t (1 : Fin 2) * 1 + 1 * 0 = 0
        rw [e1])
  rw [e]
  exact V_v0_apply m ρ c _

/-- their column block the labels of rows (t % 8)·1024 + q. -/
theorem lcol_apply (c : Dev nD) (t : Fin cfg0.N) (q : Fin 1024) :
    lcol m ρ c t (ix2 0 q) = m ((c : Thread nD τ).loc main_arg1) (ix1 (Alg.col (tj t) q)) := by
  obtain ⟨-, -, -, -, -, -, e0, e1, -⟩ := idx_facts t
  show V m ρ c main_v1 (((cfg0.win 3).blk t).view.emb (ix2 (0 : Fin 1) q)) = _
  have e : ((cfg0.win 3).blk t).view.emb (ix2 (0 : Fin 1) q) = ix2 (0 : Fin 1) (Alg.col (tj t) q) :=
    funext fun a => Fin.ext (by
      match a with
      | ⟨0, _⟩ =>
        show win0_3.index t (0 : Fin 2) * 1 + 1 * 0 = 0
        rw [e0]
      | ⟨1, _⟩ =>
        show win0_3.index t (1 : Fin 2) * 1024 + 1 * q.val = (tj t).val * 1024 + q.val
        rw [e1]; show t.val % 8 * 1024 + 1 * q.val = t.val % 8 * 1024 + q.val; omega)
  rw [e]
  exact V_v1_apply m ρ c _

/-- An index of the output array is in point t's block iff each coordinate is in the block's range on its axis. -/
theorem mem_blk4 (t : Fin cfg0.N) (i : S8192x1.Idx) :
    i ∈ ((cfg0.win 4).blk t).view.set ↔ ∀ a : Fin 2, win0_4.index t a * S512x1.size a ≤ (i a).val
      ∧ (i a).val < win0_4.index t a * S512x1.size a + S512x1.size a := by
  show i ∈ ((View.whole main_v2).slice (win0_4.rect t)).set ↔ _
  rw [View.set_slice_whole, Rect.mem_set_unit]
  exact Iff.rfl

/-- The output array after the run holds every row's hinge, once each row tile's last point leaves its rows' hinges. -/
theorem out_final (c : Dev nD)
    (hout : ∀ (t : Fin cfg0.N), t.val % 8 = 7 → ∀ p : Fin 512, outAt m ρ c t (ix2 p 0)
      = hinge (m ((c : Thread nD τ).loc main_arg0)) (m ((c : Thread nD τ).loc main_arg1)) (Alg.row (ti t) p)) :
    (dats m ρ 0 c).arrAt 4 cfg0.N = fun y : S8192x1.Idx =>
      hinge (m ((c : Thread nD τ).loc main_arg0)) (m ((c : Thread nD τ).loc main_arg1)) ⟨(y 0).val, idx2_lt0 y⟩ := by
  refine (dats m ρ 0 c).arrAt_eq_of_cover 4 _ (fun t hf => ?_) (fun i => ?_)
  · have h7 : t.val % 8 = 7 := (flush0_4 t).mp hf
    obtain ⟨-, -, -, -, -, -, -, -, e0, e1, -⟩ := idx_facts t
    show (cfg0.win 4).cut (grid0.coords t) ((dats m ρ 0 c).after 4 t) = _
    refine funext fun (j : S512x1.Idx) => ?_
    obtain ⟨p, q, rfl⟩ : ∃ (p : Fin 512) (q : Fin 1), j = ix2 p q := ⟨j 0, j 1, eq_ix2 j⟩
    obtain rfl : q = 0 := Subsingleton.elim _ _
    show outAt m ρ c t (ix2 p (0 : Fin 1)) = hinge _ _ ⟨((((cfg0.win 4).blk t).view.emb (ix2 p (0 : Fin 1))) 0).val, _⟩
    rw [hout t h7 p]
    refine congrArg _ (Fin.ext ?_)
    show (ti t).val * 512 + p.val = win0_4.index t (0 : Fin 2) * 512 + 1 * p.val
    rw [e0]; show t.val / 8 * 512 + p.val = t.val / 8 * 512 + 1 * p.val; omega
  · have hi0 : (i 0).val < 8192 := (i 0).isLt
    have hi1 : (i 1).val < 1 := (i 1).isLt
    have hN : cfg0.N = 128 := N_0
    let t : Fin cfg0.N := ⟨(i 0).val / 512 * 8 + 7, by omega⟩
    have ht : t.val = (i 0).val / 512 * 8 + 7 := rfl
    obtain ⟨-, -, -, -, -, -, -, -, e0, e1, -⟩ := idx_facts t
    refine ⟨t, (flush0_4 t).mpr (by omega), ?_⟩
    rw [mem_blk4]
    intro a
    match a with
    | ⟨0, _⟩ =>
      show win0_4.index t (0 : Fin 2) * 512 ≤ (i 0).val ∧ (i 0).val < win0_4.index t (0 : Fin 2) * 512 + 512
      rw [e0, ht]; omega
    | ⟨1, _⟩ =>
      show win0_4.index t (1 : Fin 2) * 1 ≤ (i 1).val ∧ (i 1).val < win0_4.index t (1 : Fin 2) * 1 + 1
      rw [e1]; omega

end Cert.Triplet.KV

end
-- ==== Proof.LibKeepdims.lean ====
/-
  The column forms of a row reduction kept as a unit axis (`jnp.sum(x, axis=-1, keepdims=True)` inside a kernel), read
  at an index written with `ValueIdx.ix1` / `ix2`, for any extents `a`, `b`:

  • `shapeCast_a_a1_apply`: an `[a]` vector cast to the column `[a, 1]` reads, at `(p, u)`, the vector at `p`;
  • `broadcastTo_a1_ab_apply`: a column `[a, 1]` broadcast along the rows to `[a, b]` reads, at `(p, q)`, the column at
    `(p, 0)`;
  • `multiReduction_add_rows`: at the ideal values the lane sum of an `[a, b]` vector over its second axis, read at `p`,
    is `∑ k : Fin b, v (p, k)` (the accumulator is the neutral zero, which the sum drops).

  Together: a kernel's `x / (√(∑ x², keepdims) + ε)` at `(p, q)` mentions row `p` of `x` only.
-/
import Idealize.ShloMosaic.Lib.Pipeline.Value
import Idealize.ShloMosaic.Lib.ValueIdx
import Idealize.ShloMosaic.PureOps.Ideal.Laws

open scoped BigOperators

namespace Idealize.ShloMosaic.ValueIdx

open Idealize.ShloMosaic

variable {α : Type}

/-- An `[a]` vector cast to the column `[a, 1]` reads, at `(p, u)`, the vector at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast along the rows to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- At the ideal values the lane sum of an `[a, b]` vector over its second axis, read at row `p`, is the sum of the row. -/
theorem multiReduction_add_rows {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

end Idealize.ShloMosaic.ValueIdx
-- ==== Proof.Payloads.lean ====
/-
  The kernel body's arithmetic read at an index, at the ideal values (floats are extended reals, every operation exact,
  a format change the identity). For a row block of 512 rows and a column block of 1024 rows of the embeddings:

  • the distance tile at (p, q) is √(max (‖row p‖² + ‖row q‖² − 2·⟨row p, row q⟩) 0 + ε), the two squared norms lane
    sums kept as a unit axis and the inner product one entry of the block product;
  • the same-label mask at (p, q) is the bit of "label of row p = label of column q", and the global row number of
    block row p is (block number)·512 + p;
  • the running hardest positive at row p is the maximum of its previous value and the row's maximum, from −∞, of the
    distances where the labels agree off the diagonal (0 elsewhere); the running hardest negative the minimum of its
    previous value and the row's minimum, from +∞, of the distances where the labels differ (+∞ elsewhere);
  • the hinge at row p is max (positive − negative + 1) 0, and the two running values start at 0 and +∞.
-/
import proofs.«102776_j52183852646786_1_alg».proof.Proof.Gen.KernelIdeal.Skeleton
import proofs.«102776_j52183852646786_1_alg».proof.Proof.Spec
import proofs.«102776_j52183852646786_1_alg».proof.Proof.LibKeepdims
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce

noncomputable section

open scoped BigOperators

namespace Cert.Triplet.Pay

open Cert.KernelIdeal Cert.KernelIdeal.Gen Idealize.ShloMosaic Idealize.ShloMosaic.ValueIdx Cert.Triplet

/-! ## The initial values and the hinge -/

theorem pay4_apply (p : Fin 512) : k0_pay4 (F := Ideal) (ix2 p (0 : Fin 1)) = 0 := by
  unfold k0_pay4
  rw [shapeCast_self]
  exact Ideal.ofBits_zero_f32

theorem pay5_apply (p : Fin 512) : k0_pay5 (F := Ideal) (ix2 p (0 : Fin 1)) = pinf := by
  unfold k0_pay5
  rw [shapeCast_self]
  rfl

theorem pay3_apply (a b : Vec Ideal S512x1 .f32) (p : Fin 512) :
    k0_pay3 (F := Ideal) a b (ix2 p (0 : Fin 1)) = max (a (ix2 p 0) - b (ix2 p 0) + one) 0 := by
  unfold k0_pay3
  show max (a (ix2 p 0) - b (ix2 p 0) + Ideal.ofBits .f32 0x3F800000#32) (Ideal.ofBits .f32 0x00000000#32) = _
  rw [Ideal.ofBits_zero_f32]
  rfl

/-! ## The label mask, the row numbers and the column numbers -/

/-- An integer equality comparison is the bit of the equality. -/
theorem cmpi_eq_ite {w : Nat} (x y : BitVec w) : IntOp.cmpi .eq x y = if x = y then 1#1 else 0#1 := by
  unfold IntOp.cmpi
  by_cases h : x = y
  · rw [if_pos h, h, beq_self_eq_true]; rfl
  · rw [if_neg h, show (x == y) = false from beq_eq_false_iff_ne.mpr h]; rfl

theorem pay7_apply (lr : Vec Ideal S512x1 .i32) (lc : Vec Ideal S1x1024 .i32) (p : Fin 512) (q : Fin 1024) :
    k0_pay7 (F := Ideal) lr lc (ix2 p q) = if lr (ix2 p (0 : Fin 1)) = lc (ix2 (0 : Fin 1) q) then 1#1 else 0#1 := by
  unfold k0_pay7
  rw [shapeCast_self, shapeCast_self]
  show IntOp.cmpi .eq (broadcastTo S512x1024 lr broadcasts_S512x1_S512x1024 (ix2 p q))
      (broadcastTo S512x1024 lc broadcasts_S1x1024_S512x1024 (ix2 p q)) = _
  rw [broadcastTo_a1_ab_apply, broadcastTo_1b_ab_apply, cmpi_eq_ite]

theorem pay8_apply (i : grid0.Coords) (p : Fin 512) :
    k0_pay8 i (ix2 p (0 : Fin 1)) = BitVec.ofNat 32 (i 0).val * 512#32 + BitVec.ofNat 32 p.val := by
  unfold k0_pay8
  show IntOp.addi (IntOp.muli (BitVec.ofNat 32 (i 0).val) 512#32) (iota .tc S512x1 32 [0] iota_S512x1_d0_w32 (ix2 p (0 : Fin 1))) = _
  rw [iota_single_apply]
  rfl

theorem iota_cols_apply (q : Fin 1024) :
    (iota .tc S1x1024 32 [1] iota_S1x1024_d1_w32 : IVec S1x1024 32) (ix2 (0 : Fin 1) q) = BitVec.ofNat 32 q.val := by
  rw [iota_single_apply]

/-! ## The running hardest positive and hardest negative -/

/-- At the ideal values the lane maximum of an `[a, b]` vector over its second axis, read at row `p`, is the fold of
    `max` from the accumulator's value over the row. -/
theorem multiReduction_maximumf_rows {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (congrArg (fun f : Fin b → EReal => (Finset.univ : Finset (Fin b)).fold max (Ideal.ofBits φ acc) f)
      (funext fun k => congrArg v (funext fun ax => Fin.ext (by
        match ax with
        | ⟨0, _⟩ => rfl
        | ⟨1, _⟩ => rfl))))

/-- The same for the lane minimum. -/
theorem multiReduction_minimumf_rows {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ)
    (p : Fin a) :
    multiReduction .minimumf [1] ⟨1, ![a]⟩ v acc h hφ hacc (ix1 p)
      = (Finset.univ : Finset (Fin b)).fold min (Ideal.ofBits φ acc) (fun k => v (ix2 p k)) :=
  ((multiReduction_minimumf_eq_fold v acc h hφ hacc (ix1 p)).trans
    (h.fold_filter_drop_single (FloatOps.minimumf (F := Ideal) (φ := φ)) (Ideal.ofBits φ acc) v (ix1 p))).trans
    (congrArg (fun f : Fin b → EReal => (Finset.univ : Finset (Fin b)).fold min (Ideal.ofBits φ acc) f)
      (funext fun k => congrArg v (funext fun ax => Fin.ext (by
        match ax with
        | ⟨0, _⟩ => rfl
        | ⟨1, _⟩ => rfl))))

/-- The negative mask's element: the complement of the same-label bit selects the distance, the bit itself +∞. -/
theorem neg_elem (s : BitVec 1) (d z : EReal) :
    Scalar.select (IntOp.xori s 1#1) d z = if s = 1#1 then z else d := by
  rcases BitVec.eq_zero_or_eq_one s with hs | hs
  · rw [hs, show IntOp.xori (0#1) 1#1 = 1#1 from by decide, select_one, if_neg (by decide)]
  · rw [hs, show IntOp.xori (1#1) 1#1 = 0#1 from by decide, select_zero, if_pos rfl]

/-- The positive mask's element: same label and not the diagonal selects the distance, anything else the other word. -/
theorem pos_elem (s : BitVec 1) (x y : BitVec 32) (d z : EReal) :
    Scalar.select (IntOp.andi s (IntOp.xori (IntOp.cmpi .eq x y) 1#1)) d z = if s = 1#1 ∧ x ≠ y then d else z := by
  rw [cmpi_eq_ite]
  rcases BitVec.eq_zero_or_eq_one s with hs | hs <;> by_cases hxy : x = y
  · rw [hs, if_pos hxy, show IntOp.andi (0#1) (IntOp.xori 1#1 1#1) = 0#1 from by decide, select_zero,
      if_neg (fun h => absurd h.1 (by decide))]
  · rw [hs, if_neg hxy, show IntOp.andi (0#1) (IntOp.xori 0#1 1#1) = 0#1 from by decide, select_zero,
      if_neg (fun h => absurd h.1 (by decide))]
  · rw [hs, if_pos hxy, show IntOp.andi (1#1) (IntOp.xori 1#1 1#1) = 0#1 from by decide, select_zero,
      if_neg (fun h => h.2 hxy)]
  · rw [hs, if_neg hxy, show IntOp.andi (1#1) (IntOp.xori 0#1 1#1) = 1#1 from by decide, select_one,
      if_pos ⟨rfl, hxy⟩]

theorem pay2_apply (D : FVec Ideal S512x1024 .f32) (S : IVec S512x1024 1) (prev : Vec Ideal S512x1 .f32) (p : Fin 512) :
    k0_pay2 (F := Ideal) D S prev (ix2 p (0 : Fin 1))
      = min (prev (ix2 p (0 : Fin 1))) ((Finset.univ : Finset (Fin 1024)).fold min pinf
          (fun q => if S (ix2 p q) = 1#1 then pinf else D (ix2 p q))) := by
  unfold k0_pay2
  rw [shapeCast_self, minimumf_apply, shapeCast_a_a1_apply]
  refine congrArg (min (prev (ix2 p (0 : Fin 1)))) ?_
  refine (multiReduction_minimumf_rows _ _ _ _ _ p).trans ?_
  refine congrArg (fun f : Fin 1024 → EReal => (Finset.univ : Finset (Fin 1024)).fold min pinf f) (funext fun q => ?_)
  exact neg_elem (S (ix2 p q)) (D (ix2 p q)) pinf

theorem pay1_apply (D : FVec Ideal S512x1024 .f32) (S : IVec S512x1024 1) (R : IVec S512x1 32) (v37 : BitVec 32)
    (v38 : IVec S1x1024 32) (prev : Vec Ideal S512x1 .f32) (p : Fin 512) :
    k0_pay1 (F := Ideal) D S R v37 v38 prev (ix2 p (0 : Fin 1))
      = max (prev (ix2 p (0 : Fin 1))) ((Finset.univ : Finset (Fin 1024)).fold max ninf
          (fun q => if S (ix2 p q) = 1#1 ∧ R (ix2 p (0 : Fin 1)) ≠ v37 + v38 (ix2 (0 : Fin 1) q) then D (ix2 p q) else 0)) := by
  unfold k0_pay1
  rw [shapeCast_self, maximumf_apply, shapeCast_a_a1_apply]
  refine congrArg (max (prev (ix2 p (0 : Fin 1)))) ?_
  refine (multiReduction_maximumf_rows _ _ _ _ _ p).trans ?_
  refine congrArg (fun f : Fin 1024 → EReal => (Finset.univ : Finset (Fin 1024)).fold max ninf f) (funext fun q => ?_)
  show Scalar.select (IntOp.andi (S (ix2 p q)) (IntOp.xori (IntOp.cmpi .eq
      (broadcastTo S512x1024 R broadcasts_S512x1_S512x1024 (ix2 p q))
      (broadcastTo S512x1024 (addi (broadcast S1x1024 v37) v38) broadcasts_S1x1024_S512x1024 (ix2 p q))) 1#1))
      (D (ix2 p q)) (Ideal.ofBits .f32 0x00000000#32) = _
  rw [broadcastTo_a1_ab_apply, broadcastTo_1b_ab_apply, Ideal.ofBits_zero_f32]
  exact pos_elem (S (ix2 p q)) (R (ix2 p (0 : Fin 1))) (v37 + v38 (ix2 (0 : Fin 1) q)) (D (ix2 p q)) 0

/-! ## The distance tile -/

/-- A root at an index is the root of the element. -/
theorem sqrt_apply {s : Shape} {φ : FTy} (a : FVec Ideal s φ) (i : s.Idx) :
    Idealize.ShloMosaic.sqrt a i = Ideal.sqrt (a i) := rfl

/-- The contraction's left operand index: the output's row on axis 0 … -/
theorem lhs_axis0 (i : S512x1024.Idx) (c : dot_S512x128_S1024x128_S512x1024_1_1_0_0_n_n.contr.Idx) :
    (dot_S512x128_S1024x128_S512x1024_1_1_0_0_n_n.lhsIdx i c 0).val = (i 0).val := by
  unfold DotDims.lhsIdx
  rw [dif_neg (show ¬(0 : Fin S512x128.rank) ∈ dot_S512x128_S1024x128_S512x1024_1_1_0_0_n_n.lhsBatch by decide), dif_pos (show (0 : Fin S512x128.rank) ∈ dot_S512x128_S1024x128_S512x1024_1_1_0_0_n_n.lhsNonContracting by decide)]
  rfl
/-- … and the contraction coordinate on axis 1. -/
theorem lhs_axis1 (i : S512x1024.Idx) (c : dot_S512x128_S1024x128_S512x1024_1_1_0_0_n_n.contr.Idx) :
    (dot_S512x128_S1024x128_S512x1024_1_1_0_0_n_n.lhsIdx i c 1).val = (c ⟨0, by decide⟩).val :=
  dot_S512x128_S1024x128_S512x1024_1_1_0_0_n_n.lhsIdx_val_of_single rfl i c
/-- The right operand index: the output's column on axis 0 … -/
theorem rhs_axis0 (i : S512x1024.Idx) (c : dot_S512x128_S1024x128_S512x1024_1_1_0_0_n_n.contr.Idx) :
    (dot_S512x128_S1024x128_S512x1024_1_1_0_0_n_n.rhsIdx i c 0).val = (i 1).val := by
  unfold DotDims.rhsIdx
  rw [dif_neg (show ¬(0 : Fin S1024x128.rank) ∈ dot_S512x128_S1024x128_S512x1024_1_1_0_0_n_n.rhsBatch by decide), dif_pos (show (0 : Fin S1024x128.rank) ∈ dot_S512x128_S1024x128_S512x1024_1_1_0_0_n_n.rhsNonContracting by decide)]
  rfl
/-- … and the contraction coordinate on axis 1. -/
theorem rhs_axis1 (i : S512x1024.Idx) (c : dot_S512x128_S1024x128_S512x1024_1_1_0_0_n_n.contr.Idx) :
    (dot_S512x128_S1024x128_S512x1024_1_1_0_0_n_n.rhsIdx i c 1).val = (c ⟨0, by decide⟩).val :=
  dot_S512x128_S1024x128_S512x1024_1_1_0_0_n_n.rhsIdx_val_of_single rfl i c

/-- The product of the row block with the transposed column block, into the zero splat, read at `(p, q)`: the inner
    product of row `p` of the left operand with row `q` of the right. -/
theorem matmul_rows_apply (l : FVec Ideal S512x128 .bf16) (r : FVec Ideal S1024x128 .bf16) (p : Fin 512) (q : Fin 1024) :
    matmul dot_S512x128_S1024x128_S512x1024_1_1_0_0_n_n none l r (constant (F := Ideal) S512x1024 .f32 0x00000000#32) (ix2 p q)
      = ∑ k : Fin 128, l (ix2 p k) * r (ix2 q k) := by
  simp only [matmul]
  rw [Ideal.matmul_constant_zero_apply, ← Equiv.sum_comp (contrEquiv1 dot_S512x128_S1024x128_S512x1024_1_1_0_0_n_n 128 rfl rfl).symm]
  refine Finset.sum_congr rfl fun k _ => ?_
  have hk := contrEquiv1_symm_val dot_S512x128_S1024x128_S512x1024_1_1_0_0_n_n 128 rfl rfl k
  have el : dot_S512x128_S1024x128_S512x1024_1_1_0_0_n_n.lhsIdx (ix2 p q) ((contrEquiv1 dot_S512x128_S1024x128_S512x1024_1_1_0_0_n_n 128 rfl rfl).symm k) = ix2 p k := funext fun a => Fin.ext (by
    match a with
    | ⟨0, _⟩ => exact lhs_axis0 _ _
    | ⟨1, _⟩ => exact (lhs_axis1 _ _).trans hk)
  have er : dot_S512x128_S1024x128_S512x1024_1_1_0_0_n_n.rhsIdx (ix2 p q) ((contrEquiv1 dot_S512x128_S1024x128_S512x1024_1_1_0_0_n_n 128 rfl rfl).symm k) = ix2 q k := funext fun a => Fin.ext (by
    match a with
    | ⟨0, _⟩ => exact rhs_axis0 _ _
    | ⟨1, _⟩ => exact (rhs_axis1 _ _).trans hk)
  rw [el, er]

/-- The lane sum of an `[a, b]` f32 vector from the zero word, read at row `p`: the sum of the row. -/
theorem lanesum_rows {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ v 0x00000000#32 h hφ hacc (ix1 p) = ∑ k : Fin b, v (ix2 p k) :=
  multiReduction_add_rows v 0x00000000#32 h hφ hacc p

theorem pay6_apply (xr : Vec Ideal S512x128 .f32) (xc : Vec Ideal S1024x128 .f32) (p : Fin 512) (q : Fin 1024) :
    k0_pay6 (F := Ideal) xr xc (ix2 p q)
      = Ideal.sqrt (max ((∑ k : Fin 128, xr (ix2 p k) * xr (ix2 p k)) + (∑ k : Fin 128, xc (ix2 q k) * xc (ix2 q k))
          - two * (∑ k : Fin 128, xr (ix2 p k) * xc (ix2 q k))) 0 + eps) := by
  unfold k0_pay6
  rw [sqrt_apply, addf_apply, maximumf_apply, subf_apply, addf_apply, mulf_apply, broadcast_apply, broadcast_apply,
    broadcast_apply]
  rw [broadcastTo_a1_ab_apply, shapeCast_a_a1_apply, broadcastTo_1b_ab_apply, transpose_ix2_apply, shapeCast_a_a1_apply,
    matmul_rows_apply]
  rw [lanesum_rows, lanesum_rows]
  simp only [mulf_apply, truncf_apply, Ideal.ofBits_def]
  rw [Ideal.ofBits_zero_f32]
  rfl

end Cert.Triplet.Pay

end
-- ==== Proof.AccumIdeal.lean ====
/-
  The two running buffers of the kernel region, read at a row, against the specification.

  Grid point t has row tile ti t = t / 8 and column tile tj t = t % 8; block row p of the row tile is global row
  r = row (ti t) p and block column q of the column tile is global column col (tj t) q. At point t the distance tile
  at (p, q) is dist r (col (tj t) q), its label-agreement bit is set iff the two positions carry the same label, and
  the row-number word differs from the column-number word iff the two positions differ (both are below 8192, so the
  32-bit words do not wrap). Hence the function folded by one step of the running maximum is the specification's
  positive contribution posv r on the tile's columns, and that of the running minimum its negative contribution
  negv r. By induction along a row tile, the running maximum after point t is max 0 of the fold of posv r over the
  columns before (t % 8 + 1)·1024 and the running minimum the fold of negv r over them; after the row tile's last
  point these are the folds over all 8192 columns (0 ≤ posv r r = 0 absorbs the initial 0), and the stored block is
  the row's hinge.
-/
import proofs.«102776_j52183852646786_1_alg».proof.Proof.DataIdeal
import proofs.«102776_j52183852646786_1_alg».proof.Proof.Spec
import proofs.«102776_j52183852646786_1_alg».proof.Proof.Algebra
import proofs.«102776_j52183852646786_1_alg».proof.Proof.Payloads
import proofs.«102776_j52183852646786_1_alg».proof.Proof.BlocksIdeal
import Mathlib.Data.Finset.Fold

noncomputable section

open scoped BigOperators

namespace Cert.Triplet.KV

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Triplet Cert.Triplet.KI Idealize.ShloMosaic.ValueIdx

variable (m : (ℓ : Loc nD τ sig) → Buf (Elt Ideal) ℓ) (ρ : Dev nD → PrngReg)

/-! ## The tile of point t at (p, q) -/

/-- Two global positions, a row's and a column's, as the 32-bit words the body compares: the words agree iff the
    positions do, both being below 8192. -/
theorem word_eq_iff (a p b q : ℕ) (ha : a < 16) (hp : p < 512) (hb : b < 8) (hq : q < 1024) :
    BitVec.ofNat 32 a * 512#32 + BitVec.ofNat 32 p = Scalar.muli (BitVec.ofNat 32 b) 1024#32 + BitVec.ofNat 32 q
      ↔ a * 512 + p = b * 1024 + q := by
  show BitVec.ofNat 32 a * 512#32 + BitVec.ofNat 32 p = BitVec.ofNat 32 b * 1024#32 + BitVec.ofNat 32 q ↔ _
  rw [← BitVec.toNat_inj]
  simp only [BitVec.toNat_add, BitVec.toNat_mul, BitVec.toNat_ofNat]
  omega

/-- The distance tile of point t at (p, q) is the distance of global row row (ti t) p and global column col (tj t) q. -/
theorem dist_tile (c : Dev nD) (t : Fin cfg0.N) (p : Fin 512) (q : Fin 1024) :
    k0_pay6 (F := Ideal) (xrow m ρ c t) (xcol m ρ c t) (ix2 p q)
      = dist (m ((c : Thread nD τ).loc main_arg0)) (Alg.row (ti t) p) (Alg.col (tj t) q) := by
  rw [Pay.pay6_apply]
  have h1 : ∀ k : Fin 128, xrow m ρ c t (ix2 p k) = m ((c : Thread nD τ).loc main_arg0) (ix2 (Alg.row (ti t) p) k) := xrow_apply m ρ c t p
  have h2 : ∀ k : Fin 128, xcol m ρ c t (ix2 q k) = m ((c : Thread nD τ).loc main_arg0) (ix2 (Alg.col (tj t) q) k) := xcol_apply m ρ c t q
  unfold dist sq gram
  rw [Finset.sum_congr rfl fun k _ => congrArg₂ (· * ·) (h1 k) (h1 k),
    Finset.sum_congr rfl fun k _ => congrArg₂ (· * ·) (h2 k) (h2 k),
    Finset.sum_congr rfl fun k _ => congrArg₂ (· * ·) (h1 k) (h2 k)]

/-- The label-agreement bit of point t at (p, q) is set iff the two global positions carry the same label. -/
theorem same_tile (c : Dev nD) (t : Fin cfg0.N) (p : Fin 512) (q : Fin 1024) :
    k0_pay7 (F := Ideal) (lrow m ρ c t) (lcol m ρ c t) (ix2 p q) = 1#1
      ↔ m ((c : Thread nD τ).loc main_arg1) (ix1 (Alg.row (ti t) p)) = m ((c : Thread nD τ).loc main_arg1) (ix1 (Alg.col (tj t) q)) := by
  have h1 : lrow m ρ c t (ix2 p (0 : Fin 1)) = m ((c : Thread nD τ).loc main_arg1) (ix1 (Alg.row (ti t) p)) := lrow_apply m ρ c t p
  have h2 : lcol m ρ c t (ix2 (0 : Fin 1) q) = m ((c : Thread nD τ).loc main_arg1) (ix1 (Alg.col (tj t) q)) := lcol_apply m ρ c t q
  rw [Pay.pay7_apply, h1, h2]
  by_cases h : m ((c : Thread nD τ).loc main_arg1) (ix1 (Alg.row (ti t) p)) = m ((c : Thread nD τ).loc main_arg1) (ix1 (Alg.col (tj t) q))
  · rw [if_pos h]; exact ⟨fun _ => h, fun _ => rfl⟩
  · rw [if_neg h]; exact ⟨fun h' => absurd h' (by decide), fun h' => absurd h' h⟩

/-- The row-number word and the column-number word of point t at (p, q) agree iff the global positions do. -/
theorem diag_tile (t : Fin cfg0.N) (p : Fin 512) (q : Fin 1024) :
    k0_pay8 (grid0.coords t) (ix2 p (0 : Fin 1))
        = Scalar.muli (BitVec.ofNat 32 ((grid0.coords t) 1).val) 1024#32 + lanes (ix2 (0 : Fin 1) q)
      ↔ Alg.row (ti t) p = Alg.col (tj t) q := by
  rw [Pay.pay8_apply, show lanes (ix2 (0 : Fin 1) q) = BitVec.ofNat 32 q.val from Pay.iota_cols_apply q, coords0, coords1,
    Alg.row_col_eq_iff]
  exact word_eq_iff _ _ _ _ (ti t).isLt p.isLt (tj t).isLt q.isLt

/-- The function folded by one step of the running maximum is the positive contribution of column col (tj t) q to
    row row (ti t) p. -/
theorem tile_pos (c : Dev nD) (t : Fin cfg0.N) (p : Fin 512) (q : Fin 1024) :
    (if k0_pay7 (F := Ideal) (lrow m ρ c t) (lcol m ρ c t) (ix2 p q) = 1#1
        ∧ k0_pay8 (grid0.coords t) (ix2 p (0 : Fin 1))
          ≠ Scalar.muli (BitVec.ofNat 32 ((grid0.coords t) 1).val) 1024#32 + lanes (ix2 (0 : Fin 1) q)
      then k0_pay6 (F := Ideal) (xrow m ρ c t) (xcol m ρ c t) (ix2 p q) else 0)
      = posv (m ((c : Thread nD τ).loc main_arg0)) (m ((c : Thread nD τ).loc main_arg1)) (Alg.row (ti t) p) (Alg.col (tj t) q) := by
  unfold posv
  exact if_congr (and_congr (same_tile m ρ c t p q) (not_congr (diag_tile t p q))) (dist_tile m ρ c t p q) rfl

/-- The function folded by one step of the running minimum is the negative contribution of that column to that row. -/
theorem tile_neg (c : Dev nD) (t : Fin cfg0.N) (p : Fin 512) (q : Fin 1024) :
    (if k0_pay7 (F := Ideal) (lrow m ρ c t) (lcol m ρ c t) (ix2 p q) = 1#1 then pinf
      else k0_pay6 (F := Ideal) (xrow m ρ c t) (xcol m ρ c t) (ix2 p q))
      = negv (m ((c : Thread nD τ).loc main_arg0)) (m ((c : Thread nD τ).loc main_arg1)) (Alg.row (ti t) p) (Alg.col (tj t) q) := by
  unfold negv
  exact if_congr (same_tile m ρ c t p q) rfl (dist_tile m ρ c t p q)

/-! ## One step of the two running buffers at a row -/

/-- One step of the running maximum at point t, read at row p: the previous value against the maximum, from −∞, of
    the row's positive contributions over the columns of tile tj t. -/
theorem stepPos_apply (c : Dev nD) (t : Fin cfg0.N) (p : Fin 512) (a : Vec Ideal S512x1 .f32) :
    stepPos (grid0.coords t) (xrow m ρ c t) (xcol m ρ c t) (lrow m ρ c t) (lcol m ρ c t) a (ix2 p (0 : Fin 1))
      = max (a (ix2 p (0 : Fin 1))) ((Finset.univ : Finset (Fin 1024)).fold max ninf fun q =>
          posv (m ((c : Thread nD τ).loc main_arg0)) (m ((c : Thread nD τ).loc main_arg1)) (Alg.row (ti t) p) (Alg.col (tj t) q)) :=
  (Pay.pay1_apply _ _ _ _ _ a p).trans
    (congrArg (max (a (ix2 p (0 : Fin 1)))) (Finset.fold_congr fun q _ => tile_pos m ρ c t p q))

/-- One step of the running minimum at point t, read at row p. -/
theorem stepNeg_apply (c : Dev nD) (t : Fin cfg0.N) (p : Fin 512) (b : Vec Ideal S512x1 .f32) :
    stepNeg (xrow m ρ c t) (xcol m ρ c t) (lrow m ρ c t) (lcol m ρ c t) b (ix2 p (0 : Fin 1))
      = min (b (ix2 p (0 : Fin 1))) ((Finset.univ : Finset (Fin 1024)).fold min pinf fun q =>
          negv (m ((c : Thread nD τ).loc main_arg0)) (m ((c : Thread nD τ).loc main_arg1)) (Alg.row (ti t) p) (Alg.col (tj t) q)) :=
  (Pay.pay2_apply _ _ b p).trans
    (congrArg (min (b (ix2 p (0 : Fin 1)))) (Finset.fold_congr fun q _ => tile_neg m ρ c t p q))

/-! ## The running maximum after each point -/

/-- At a row tile's first point: one step from 0 over the columns of tile 0. -/
theorem posA_at_first (c : Dev nD) (t : Fin cfg0.N) (h : t.val % 8 = 0) (p : Fin 512) :
    posA m ρ c t.val t.isLt (ix2 p (0 : Fin 1))
      = max 0 ((Alg.below ((t.val % 8 + 1) * 1024)).fold max ninf
          (posv (m ((c : Thread nD τ).loc main_arg0)) (m ((c : Thread nD τ).loc main_arg1)) (Alg.row (ti t) p))) := by
  rw [posA_first m ρ c t h]
  refine (stepPos_apply m ρ c t p _).trans ?_
  rw [Pay.pay4_apply, show tj t = 0 from Fin.ext h, h]
  exact Alg.max_first _ ninf 0

/-- At any other point: one step from the point before, which lies in the same row tile. -/
theorem posA_at_next (c : Dev nD) (t : Fin cfg0.N) (h : t.val % 8 ≠ 0) (hp : t.val - 1 < cfg0.N) (p : Fin 512)
    (ih : posA m ρ c (t.val - 1) hp (ix2 p (0 : Fin 1))
      = max 0 ((Alg.below (((t.val - 1) % 8 + 1) * 1024)).fold max ninf
          (posv (m ((c : Thread nD τ).loc main_arg0)) (m ((c : Thread nD τ).loc main_arg1)) (Alg.row (ti ⟨t.val - 1, hp⟩) p)))) :
    posA m ρ c t.val t.isLt (ix2 p (0 : Fin 1))
      = max 0 ((Alg.below ((t.val % 8 + 1) * 1024)).fold max ninf
          (posv (m ((c : Thread nD τ).loc main_arg0)) (m ((c : Thread nD τ).loc main_arg1)) (Alg.row (ti t) p))) := by
  rw [posA_step m ρ c t h hp]
  refine (stepPos_apply m ρ c t p _).trans ?_
  rw [ih, show ti ⟨t.val - 1, hp⟩ = ti t from Fin.ext (by show (t.val - 1) / 8 = t.val / 8; omega),
    show (t.val - 1) % 8 + 1 = t.val % 8 by omega]
  exact Alg.max_step _ ninf 0 (tj t) (Nat.pos_of_ne_zero h)

/-- By induction on the point's number. -/
theorem posA_nat (c : Dev nD) : ∀ (k : ℕ) (hk : k < cfg0.N) (p : Fin 512),
    posA m ρ c k hk (ix2 p (0 : Fin 1))
      = max 0 ((Alg.below ((k % 8 + 1) * 1024)).fold max ninf
          (posv (m ((c : Thread nD τ).loc main_arg0)) (m ((c : Thread nD τ).loc main_arg1)) (Alg.row (ti ⟨k, hk⟩) p))) := by
  intro k
  induction k with
  | zero => intro hk p; exact posA_at_first m ρ c ⟨0, hk⟩ rfl p
  | succ k ih =>
    intro hk p
    by_cases h : (k + 1) % 8 = 0
    · exact posA_at_first m ρ c ⟨k + 1, hk⟩ h p
    · exact posA_at_next m ρ c ⟨k + 1, hk⟩ h (Nat.lt_of_succ_lt hk) p (ih (Nat.lt_of_succ_lt hk) p)

/-- The running maximum after point t, at row p: the greatest positive contribution over the columns met so far in
    the row tile, against 0. -/
theorem posA_apply (c : Dev nD) (t : Fin cfg0.N) (p : Fin 512) :
    posA m ρ c t.val t.isLt (ix2 p (0 : Fin 1))
      = max 0 ((Alg.below ((t.val % 8 + 1) * 1024)).fold max ninf
          (posv (m ((c : Thread nD τ).loc main_arg0)) (m ((c : Thread nD τ).loc main_arg1)) (Alg.row (ti t) p))) :=
  posA_nat m ρ c t.val t.isLt p

/-! ## The running minimum after each point -/

/-- At a row tile's first point: one step from +∞ over the columns of tile 0. -/
theorem negA_at_first (c : Dev nD) (t : Fin cfg0.N) (h : t.val % 8 = 0) (p : Fin 512) :
    negA m ρ c t.val t.isLt (ix2 p (0 : Fin 1))
      = (Alg.below ((t.val % 8 + 1) * 1024)).fold min pinf
          (negv (m ((c : Thread nD τ).loc main_arg0)) (m ((c : Thread nD τ).loc main_arg1)) (Alg.row (ti t) p)) := by
  rw [negA_first m ρ c t h]
  refine (stepNeg_apply m ρ c t p _).trans ?_
  rw [Pay.pay5_apply, show tj t = 0 from Fin.ext h, h]
  exact Alg.min_first _ pinf

/-- At any other point: one step from the point before, which lies in the same row tile. -/
theorem negA_at_next (c : Dev nD) (t : Fin cfg0.N) (h : t.val % 8 ≠ 0) (hp : t.val - 1 < cfg0.N) (p : Fin 512)
    (ih : negA m ρ c (t.val - 1) hp (ix2 p (0 : Fin 1))
      = (Alg.below (((t.val - 1) % 8 + 1) * 1024)).fold min pinf
          (negv (m ((c : Thread nD τ).loc main_arg0)) (m ((c : Thread nD τ).loc main_arg1)) (Alg.row (ti ⟨t.val - 1, hp⟩) p))) :
    negA m ρ c t.val t.isLt (ix2 p (0 : Fin 1))
      = (Alg.below ((t.val % 8 + 1) * 1024)).fold min pinf
          (negv (m ((c : Thread nD τ).loc main_arg0)) (m ((c : Thread nD τ).loc main_arg1)) (Alg.row (ti t) p)) := by
  rw [negA_step m ρ c t h hp]
  refine (stepNeg_apply m ρ c t p _).trans ?_
  rw [ih, show ti ⟨t.val - 1, hp⟩ = ti t from Fin.ext (by show (t.val - 1) / 8 = t.val / 8; omega),
    show (t.val - 1) % 8 + 1 = t.val % 8 by omega]
  exact Alg.min_step _ pinf (tj t) (Nat.pos_of_ne_zero h)

/-- By induction on the point's number. -/
theorem negA_nat (c : Dev nD) : ∀ (k : ℕ) (hk : k < cfg0.N) (p : Fin 512),
    negA m ρ c k hk (ix2 p (0 : Fin 1))
      = (Alg.below ((k % 8 + 1) * 1024)).fold min pinf
          (negv (m ((c : Thread nD τ).loc main_arg0)) (m ((c : Thread nD τ).loc main_arg1)) (Alg.row (ti ⟨k, hk⟩) p)) := by
  intro k
  induction k with
  | zero => intro hk p; exact negA_at_first m ρ c ⟨0, hk⟩ rfl p
  | succ k ih =>
    intro hk p
    by_cases h : (k + 1) % 8 = 0
    · exact negA_at_first m ρ c ⟨k + 1, hk⟩ h p
    · exact negA_at_next m ρ c ⟨k + 1, hk⟩ h (Nat.lt_of_succ_lt hk) p (ih (Nat.lt_of_succ_lt hk) p)

/-- The running minimum after point t, at row p: the least negative contribution over the columns met so far in the
    row tile. -/
theorem negA_apply (c : Dev nD) (t : Fin cfg0.N) (p : Fin 512) :
    negA m ρ c t.val t.isLt (ix2 p (0 : Fin 1))
      = (Alg.below ((t.val % 8 + 1) * 1024)).fold min pinf
          (negv (m ((c : Thread nD τ).loc main_arg0)) (m ((c : Thread nD τ).loc main_arg1)) (Alg.row (ti t) p)) :=
  negA_nat m ρ c t.val t.isLt p

/-! ## The stored block -/

/-- What a row tile's last point stores at row p is the hinge of the global row row (ti t) p. -/
theorem outAt_apply (c : Dev nD) (t : Fin cfg0.N) (h7 : t.val % 8 = 7) (p : Fin 512) :
    outAt m ρ c t (ix2 p (0 : Fin 1))
      = hinge (m ((c : Thread nD τ).loc main_arg0)) (m ((c : Thread nD τ).loc main_arg1)) (Alg.row (ti t) p) := by
  unfold outAt
  refine (Pay.pay3_apply _ _ p).trans ?_
  rw [posA_apply, negA_apply, h7, show (7 + 1) * 1024 = 8192 from rfl, Alg.min_total,
    Alg.max_total _ ninf 0 ⟨Alg.row (ti t) p, le_of_eq (if_neg fun h => h.2 rfl).symm⟩]
  rfl

end Cert.Triplet.KV

end
-- ==== Proof.TailIdeal.lean ====
/-
  The two host operations after the kernel region, at the ideal values: the sum of the 8192×1 array of row hinges over
  both axes from the zero word, divided by the word of 8192. A sum over the indices of an 8192×1 array is the sum over
  its rows, the zero word is the extended real 0, so the result's one element is the rows' mean: the loss.
-/
import proofs.«102776_j52183852646786_1_alg».proof.KernelIdeal
import proofs.«102776_j52183852646786_1_alg».proof.Proof.Spec
import proofs.«102776_j52183852646786_1_alg».proof.Proof.Algebra
import Idealize.ShloMosaic.PureOps.Ideal.Laws
import Idealize.ShloMosaic.Lib.ValueIdx

noncomputable section

open scoped BigOperators

namespace Cert.Triplet.KV

open Cert.KernelIdeal Idealize.ShloMosaic Idealize.ShloMosaic.ValueIdx Idealize.SL.Sem Cert.Triplet

/-- The sum of an 8192×1 array that holds the rows' hinges is the sum of the hinges. -/
theorem sum_out (x : Emb) (l : Lab) (out : (⟨S8192x1, .f32⟩ : BufTy).Contents (Elt Ideal))
    (hout : ∀ y : S8192x1.Idx, out y = hinge x l ⟨(y 0).val, idx2_lt0 y⟩) :
    (∑ y : S8192x1.Idx, out y) = ∑ r : Fin 8192, hinge x l r :=
  (Alg.sum_rows out).trans (Finset.sum_congr rfl fun r _ => hout (ix2 r (0 : Fin 1)))

/-- The sum over both axes from the zero word, divided by the word of 8192, is the loss: for any proofs of the two
    shape facts the operations carry. -/
theorem tail_eq_gen (x : Emb) (l : Lab) (out : (⟨S8192x1, .f32⟩ : BufTy).Contents (Elt Ideal))
    (hout : ∀ y : S8192x1.Idx, out y = hinge x l ⟨(y 0).val, idx2_lt0 y⟩)
    (hred : S8192x1.ReducesTo [0, 1] S_) (hnum : 0 < S_.numel) :
    Host.divf (F := Ideal) (Host.reduceAdd (F := Ideal) out (constant (F := Ideal) S_ .f32 0x00000000#32) hred hnum)
        (constant (F := Ideal) S_ .f32 0x46000000#32)
      = fun _ => loss x l := by
  funext i
  show Ideal.div (Ideal.hostReduceAdd hred out (Ideal.ofBits .f32 0x00000000#32) i) (Ideal.ofBits .f32 0x46000000#32) = _
  rw [Ideal.hostReduceAdd_total hred (fun b => b.elim0) out _ i, Ideal.ofBits_zero_f32, zero_add, sum_out x l out hout]
  rfl

section
variable [Cert.KernelIdeal.Facts]
open Cert.KernelIdeal.Facts₀

/-- The same with the program's stated shape facts. -/
theorem tail_eq (x : Emb) (l : Lab) (out : (⟨S8192x1, .f32⟩ : BufTy).Contents (Elt Ideal))
    (hout : ∀ y : S8192x1.Idx, out y = hinge x l ⟨(y 0).val, idx2_lt0 y⟩) :
    Host.divf (F := Ideal) (Host.reduceAdd (F := Ideal) out (constant (F := Ideal) S_ .f32 0x00000000#32)
        reducesTo_S8192x1_S_d0_1 h_S_) (constant (F := Ideal) S_ .f32 0x46000000#32)
      = fun _ => loss x l :=
  tail_eq_gen x l out hout _ _

end

end Cert.Triplet.KV

end
-- ==== Proof.ValueIdeal.lean ====
/-
  What the idealized kernel program computes: run from any memory, @main ends with its result buffer at the
  batch-hard triplet loss of its two arguments, the arguments unchanged. The region's result array holds, row by
  row, the hinge of the row's hardest positive and hardest negative (the running buffers after a row tile's last
  column tile are the folds over all 8192 columns); the tail sums the rows and divides by their number.
-/
import proofs.«102776_j52183852646786_1_alg».proof.Proof.RunIdeal
import proofs.«102776_j52183852646786_1_alg».proof.Proof.BlocksIdeal
import proofs.«102776_j52183852646786_1_alg».proof.Proof.AccumIdeal
import proofs.«102776_j52183852646786_1_alg».proof.Proof.TailIdeal

noncomputable section

namespace Cert.Triplet.KV

open Cert.KernelIdeal Cert.KernelIdeal.Gen
open Idealize.ShloMosaic Idealize.ShloMosaic.TcCoe Idealize.ShloMosaic.ValueIdx
open Idealize.SL.Sem
open Cert.Triplet Cert.Triplet.KI

variable (m : (ℓ : Loc nD τ sig) → Buf (Elt Ideal) ℓ) (ρ : Dev nD → PrngReg)

/-- The region's result array after the run: row r holds row r's hinge. -/
theorem out_rows (c : Dev nD) :
    (dats m ρ 0 c).arrAt 4 cfg0.N
      = fun y : S8192x1.Idx => hinge (m ((c : Thread nD τ).loc main_arg0)) (m ((c : Thread nD τ).loc main_arg1)) ⟨(y 0).val, idx2_lt0 y⟩ :=
  out_final m ρ c fun t h7 p => outAt_apply m ρ c t h7 p

/-- The result buffer at the end is the loss. -/
theorem result_loss (c : Dev nD) :
    Vend m ρ c (Proc.devRef .tc main_v4) = fun _ => loss (m ((c : Thread nD τ).loc main_arg0)) (m ((c : Thread nD τ).loc main_arg1)) := by
  rw [Vend_result]
  exact tail_eq_gen _ _ _ (fun y => congrFun (out_rows m ρ c) y) _ _

/-- The idealized kernel program's run: the result is the loss, both arguments end as launched. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c : Thread nD τ).loc main_v4) = (fun _ => loss (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ h c => ⟨(h c main_v4 rfl).trans (result_loss m ρ c), (h c main_arg0 rfl).trans (Vend_arg0 m ρ c),
    (h c main_arg1 rfl).trans (Vend_arg1 m ρ c)⟩) (run_main m ρ)

end Cert.Triplet.KV

end
-- ==== Proof.lean ====
/-
  The certificate of the tiled batch-hard triplet-loss kernel against its jnp reference.

  The kernel walks a 16 × 8 grid of (512-row, 1024-column) tiles of the 8192 × 8192 distance matrix, never storing
  it: per row it keeps a running maximum of the distances to same-label columns other than the row itself and a
  running minimum of the distances to other-label columns, and after a row tile's last column tile stores the hinge
  max (maximum − minimum + 1) 0; @main then averages the 8192 hinges. The reference forms the whole matrix, masks it
  by multiplying with the 0/1 positive mask and by selecting +∞ off the negative mask, reduces each row, and
  averages the same hinge. Over the extended reals both are the function `Cert.Triplet.loss` of the two arguments:
  the Gram expansion is the same expression on both sides, a product with the 0/1 mask is the selection, a running
  maximum over eight column tiles started from 0 is the maximum over all columns because the row's own column
  contributes exactly 0, a running minimum started from +∞ is the minimum over all columns, and a sum does not depend
  on the shape it is taken over. No law used needs the inputs finite.

  The three frames: the kernel program at the word level and at the extended reals by the launch of its one region
  between two stretches of host operations (the embeddings' buffer, read by two windows, held by halves); the
  reference's by its run. The ideal pass rewrote nothing, so `preserves` has nothing to state.
-/
import proofs.«102776_j52183852646786_1_alg».proof.Defs
import proofs.«102776_j52183852646786_1_alg».proof.Proof.Gen.Kernel
import proofs.«102776_j52183852646786_1_alg».proof.Proof.Gen.KernelIdeal
import proofs.«102776_j52183852646786_1_alg».proof.Proof.Gen.ReferenceIdeal
import proofs.«102776_j52183852646786_1_alg».proof.Proof.Gen.Pre_finite_inputs
import proofs.«102776_j52183852646786_1_alg».proof.Proof.Gen.ReferenceIdeal.Run
import proofs.«102776_j52183852646786_1_alg».proof.Proof.Gen.ReferenceIdeal.Read
import proofs.«102776_j52183852646786_1_alg».proof.Proof.RefValue
import proofs.«102776_j52183852646786_1_alg».proof.Proof.RunBits
import proofs.«102776_j52183852646786_1_alg».proof.Proof.ValueIdeal
import Idealize.ShloMosaic.Adequacy
import Idealize.ShloMosaic.Init

noncomputable section

namespace Cert.Proof

open Idealize.ShloMosaic Idealize.ShloMosaic.TcCoe Idealize.SL.Sem

/-- The word-level kernel program runs to the end with its arguments unchanged. -/
theorem frame_k : @Cert.frame_Kernel Cert.Kernel.Gen.facts Cert.Pre_finite_inputs.Gen.facts :=
  fun m ρ _ => Cert.Triplet.KB.frame_run (F := Bits) m ρ

/-- So does the idealized one. -/
theorem frame_ki : @Cert.frame_KernelIdeal Cert.KernelIdeal.Gen.facts Cert.Pre_finite_inputs.Gen.facts :=
  fun m ρ _ => Cert.Triplet.KI.frame_run (F := Ideal) m ρ

/-- The reference's frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both idealized programs end with their result at the loss of their (agreeing) arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => fun _ => Cert.Triplet.loss (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), Cert.Triplet.KV.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, Cert.Triplet.Ref.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
